-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_v53 : IVec S1x1600000 32 := (extractStridedSlice S1x1600000 ![0, 0] · slices_S2x1600000_S1x1600000_0_0) main_arg1
  let main_v54 : IVec S1600000 32 := shapeCast S1600000 main_v53 shapeCasts_S1x1600000_S1600000
  let main_c_19 : IVec S_ 32 := constantI S_ 32 100000#32
  let main_v55 : IVec S1600000 32 := broadcastInDim S1600000 ![] bcast_S_S1600000 main_c_19
  let main_v56 : IVec S1600000 1 := cmpi .slt main_v54 main_v55
  let main_v57 : IVec S1600000 1 := andi main_v52 main_v56
  let main_c_20 : IVec S_ 1 := constantI S_ 1 1#1
  let main_v58 : IVec S_ 1 := (fun x v => Host.reduce IntOp.andi x v reducesTo_S1600000_S_d0 h_S_) main_v57 main_c_20
  let main_v59 : IVec S_ 1 := andi main_v48 main_v58
  main_v59

def fn_part2 {F : FTy → Type} [FloatOps F] (main_arg1 : IVec S2x1600000 32) (main_arg8 : FVec F S64x128 .f32) (main_arg9 : FVec F S64 .f32) (main_arg10 : FVec F S64x128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_v48 main_v50 main_c_18

def fn_part1 {F : FTy → Type} [FloatOps F] (main_arg1 : IVec S2x1600000 32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S2000x128 : Shape := ⟨2, ![2000, 128]⟩
abbrev S2000x1 : Shape := ⟨2, ![2000, 1]⟩
abbrev S1x64 : Shape := ⟨2, ![1, 64]⟩
abbrev S100000x64 : Shape := ⟨2, ![100000, 64]⟩
abbrev S2000x64 : Shape := ⟨2, ![2000, 64]⟩
abbrev S128x64 : Shape := ⟨2, ![128, 64]⟩

abbrev nBuf : Space → Nat
  | .hbm => 115
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .i32⟩
  | .hbm, ⟨29, _⟩ => ⟨S1600000, .i32⟩
  | .hbm, ⟨30, _⟩ => ⟨S1600000, .i1⟩
  | .hbm, ⟨31, _⟩ => ⟨S_, .i32⟩
  | .hbm, ⟨32, _⟩ => ⟨S1600000, .i32⟩
  | .hbm, ⟨33, _⟩ => ⟨S1600000, .i32⟩
  | .hbm, ⟨34, _⟩ => ⟨S1600000, .i32⟩
  | .hbm, ⟨35, _⟩ => ⟨S1600000x1, .i32⟩
  | .hbm, ⟨36, _⟩ => ⟨S1, .i32⟩
  | .hbm, ⟨37, _⟩ => ⟨S_, .i32⟩
  | .hbm, ⟨38, _⟩ => ⟨S1600000x1, .i32⟩
  | .hbm, ⟨39, _⟩ => ⟨S1600000x1, .i1⟩
  | .hbm, ⟨40, _⟩ => ⟨S1x1, .i32⟩
  | .hbm, ⟨41, _⟩ => ⟨S1600000x1, .i32⟩
  | .hbm, ⟨42, _⟩ => ⟨S1600000x1, .i1⟩
  | .hbm, ⟨43, _⟩ => ⟨S1600000x1, .i1⟩
  | .hbm, ⟨44, _⟩ => ⟨S_, .i1⟩
  | .hbm, ⟨45, _⟩ => ⟨S1600000, .i1⟩
  | .hbm, ⟨46, _⟩ => ⟨S1600000x128, .f32⟩
  | .hbm, ⟨47, _⟩ => ⟨S1600000x128, .i1⟩
  | .hbm, ⟨48, _⟩ => ⟨S_, .f32⟩
  | .hbm, ⟨49, _⟩ => ⟨S1600000x128, .f32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1, .i32⟩
  | .hbm, ⟨66, _⟩ => ⟨S_, .i32⟩
  | .hbm, ⟨67, _⟩ => ⟨S1600000x1, .i32⟩
  | .hbm, ⟨68, _⟩ => ⟨S1600000x1, .i1⟩
  | .hbm, ⟨69, _⟩ => ⟨S1x1, .i32⟩
  | .hbm, ⟨70, _⟩ => ⟨S1600000x1, .i32⟩
  | .hbm, ⟨71, _⟩ => ⟨S1600000x1, .i1⟩
  | .hbm, ⟨72, _⟩ => ⟨S1600000x1, .i1⟩
  | .hbm, ⟨73, _⟩ => ⟨S_, .i1⟩
  | .hbm, ⟨74, _⟩ => ⟨S1600000, .i1⟩
  | .hbm, ⟨75, _⟩ => ⟨S1600000x128, .f32⟩
  | .hbm, ⟨76, _⟩ => ⟨S1600000x128, .i1⟩
  | .hbm, ⟨77, _⟩ => ⟨S_, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1, .i32⟩
  | .hbm, ⟨95, _⟩ => ⟨S_, .i32⟩
  | .hbm, ⟨96, _⟩ => ⟨S1600000x1, .i32⟩
  | .hbm, ⟨97, _⟩ => ⟨S1600000x1, .i1⟩
  | .hbm, ⟨98, _⟩ => ⟨S1x1, .i32⟩
  | .hbm, ⟨99, _⟩ => ⟨S1600000x1, .i32⟩
  | .hbm, ⟨100, _⟩ => ⟨S1600000x1, .i1⟩
  | .hbm, ⟨101, _⟩ => ⟨S1600000x1, .i1⟩
  | .hbm, ⟨102, _⟩ => ⟨S_, .i1⟩
  | .hbm, ⟨103, _⟩ => ⟨S1600000, .i1⟩
  | .hbm, ⟨104, _⟩ => ⟨S1600000x128, .f32⟩
  | .hbm, ⟨105, _⟩ => ⟨S1600000x128, .i1⟩
  | .hbm, ⟨106, _⟩ => ⟨S_, .f32⟩
  | .hbm, ⟨107, _⟩ => ⟨S1600000x128, .f32⟩
  | .hbm, ⟨108, _⟩ => ⟨S1600000x128, .f32⟩
  | .hbm, ⟨109, _⟩ => ⟨S_, .f32⟩
  | .hbm, ⟨110, _⟩ => ⟨S100000x128, .f32⟩
  | .hbm, ⟨111, _⟩ => ⟨S1600000x1, .i32⟩
  | .hbm, ⟨112, _⟩ => ⟨S100000x128, .f32⟩
  | .hbm, ⟨113, _⟩ => ⟨S1x64, .f32⟩
  | .hbm, ⟨114, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x128, .f32⟩
  | .local _ .vmem, ⟨18, _⟩ => ⟨S1x128, .f32⟩
  | .local _ .vmem, ⟨19, _⟩ => ⟨S128x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S2000x128, .f32⟩
  | .local _ .vmem, ⟨27, _⟩ => ⟨S2000x128, .f32⟩
  | .local _ .vmem, ⟨28, _⟩ => ⟨S64x128, .f32⟩
  | .local _ .vmem, ⟨29, _⟩ => ⟨S1x64, .f32⟩
  | .local _ .vmem, ⟨30, _⟩ => ⟨S64x128, .f32⟩
  | .local _ .vmem, ⟨31, _⟩ => ⟨S2000x64, .f32⟩
  | .local _ .vmem, ⟨32, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v13 : Ref sig .tc := ⟨.hbm, 50, rfl⟩
abbrev main_cst_3 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v19 : Ref sig .tc := ⟨.hbm, 79, rfl⟩
abbrev main_cst_4 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v25 : Ref sig .tc := ⟨.hbm, 108, rfl⟩
abbrev main_cst_5 : Ref sig .tc := ⟨.hbm, 109, rfl⟩
abbrev main_v26 : Ref sig .tc := ⟨.hbm, 110, rfl⟩
abbrev main_v27 : Ref sig .tc := ⟨.hbm, 111, rfl⟩
abbrev main_v28 : Ref sig .tc := ⟨.hbm, 112, rfl⟩
abbrev main_v29 : Ref sig .tc := ⟨.hbm, 113, rfl⟩
abbrev main_v30 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S128x128_p1_0_S128x128 : S128x128.Transposes [1, 0] S128x128
  broadcasts_S1x128_S2000x128 : S1x128.Broadcasts S2000x128
  shapeCasts_S64_S1x64 : S64.ShapeCasts S1x64
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  transposes_S64x128_p1_0_S128x64 : S64x128.Transposes [1, 0] S128x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .f32 = 32 ∨ (Rect.block (s := S100000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x128.size a ≤ S64x128.size a
  hwx2_5 : ∀ i : grid2.Coords, EltTy.bits .f32 = 32 ∨ (Rect.block (s := S64x128) S64x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S100000x64.size a
  hwx2_6 : ∀ i : grid2.Coords, EltTy.bits .f32 = 32 ∨ (Rect.block (s := S100000x64) S2000x64.size (cc2_transform_6 i) (hinb2_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v16) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S64x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v30) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000x128, .f32⟩
  | .hbm, ⟨96, _⟩ => ⟨S_, .f32⟩
  | .hbm, ⟨97, _⟩ => ⟨S100000x128, .f32⟩
  | .hbm, ⟨98, _⟩ => ⟨S1600000x1, .i32⟩
  | .hbm, ⟨99, _⟩ => ⟨S100000x128, .f32⟩
  | .hbm, ⟨100, _⟩ => ⟨S_, .f32⟩
  | .hbm, ⟨101, _⟩ => ⟨S1600000, .f32⟩
  | .hbm, ⟨102, _⟩ => ⟨S_, .f32⟩
  | .hbm, ⟨103, _⟩ => ⟨S100000, .f32⟩
  | .hbm, ⟨104, _⟩ => ⟨S1600000x1, .i32⟩
  | .hbm, ⟨105, _⟩ => ⟨S100000, .f32⟩
  | .hbm, ⟨106, _⟩ => ⟨S_, .f32⟩
  | .hbm, ⟨107, _⟩ => ⟨S100000, .f32⟩
  | .hbm, ⟨108, _⟩ => ⟨S100000, .f32⟩
  | .hbm, ⟨109, _⟩ => ⟨S100000x1, .f32⟩
  | .hbm, ⟨110, _⟩ => ⟨S100000x128, .f32⟩
  | .hbm, ⟨111, _⟩ => ⟨S100000x128, .f32⟩
  | .hbm, ⟨112, _⟩ => ⟨S128x64, .f32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | .hbm, ⟨117, _⟩ => ⟨S128x64, .f32⟩
  | .hbm, ⟨118, _⟩ => ⟨S100000x64, .f32⟩
  | .hbm, ⟨119, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LayerLaw.lean ====
/-
  One SAGE layer at one output element, written twice, and the law that joins the two writings.

  Row `i` of the layer's result, column `j`, depends on: row `i` of the summed neighbour features `a`, row `i` of the
  node's own features `x`, row `j` of the two weight matrices `wl`, `wr`, the bias entry `b`, and the row's divisor
  `c` (the neighbour count, raised to at least one).

  * kernel's arrangement:    act ((Σₖ (aₖ · inv) · wlₖ  +  Σₖ xₖ · wrₖ)  +  b),   with inv = 1 / c computed beforehand;
  * reference's arrangement: act ((Σₖ (aₖ / c) · wlₖ  +  b)  +  Σₖ xₖ · wrₖ).

  They agree on all extended reals as soon as `c ≠ 0`: off zero the quotient `u / c` is by definition `u · c⁻¹`, so
  `aₖ · (1 / c) = aₖ · (1 · c⁻¹) = aₖ / c` termwise (no finiteness of `aₖ` is used), and the two bracketings of the three
  summands differ by commutativity and associativity of addition alone, which hold on the extended reals at the
  infinities too.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- The optional rectifier: the maximum with the word `+0.0`'s value, or nothing. -/
def act (relu : Bool) (v : EReal) : EReal := if relu then max v (Ideal.ofBits .f32 0x00000000#32) else v

/-- One output element in the kernel's arrangement (`inv` the precomputed reciprocal of the row's divisor). -/
def elemK (relu : Bool) (a x wl wr : Fin 128 → EReal) (inv b : EReal) : EReal :=
  act relu (((∑ k, (a k * inv) * wl k) + (∑ k, x k * wr k)) + b)

/-- One output element in the reference's arrangement (`c` the row's divisor). -/
def elemR (relu : Bool) (a x wl wr : Fin 128 → EReal) (c b : EReal) : EReal :=
  act relu (((∑ k, Ideal.div (a k) c * wl k) + b) + (∑ k, x k * wr k))

/-- Multiplying by the reciprocal of a nonzero divisor is dividing by it, for every extended real numerator. -/
theorem mul_one_div {c : EReal} (hc : c ≠ 0) (u : EReal) : u * Ideal.div 1 c = Ideal.div u c := by
  unfold Ideal.div
  rw [if_neg hc, if_neg hc, one_mul]

/-- The two arrangements of one element agree when the divisor is not zero. -/
theorem elem_eq (relu : Bool) (a x wl wr : Fin 128 → EReal) {c : EReal} (hc : c ≠ 0) (b : EReal) :
    elemK relu a x wl wr (Ideal.div 1 c) b = elemR relu a x wl wr c b := by
  unfold elemK elemR
  simp only [mul_one_div hc]
  rw [add_right_comm]

/-- The whole layer in the kernel's arrangement: `A` the summed neighbour features, `inv` the column of reciprocal
    divisors, `X` the nodes' own features, `Wl`, `Wr` the weights (one row per output column), `b` the bias as a row. -/
def layerK (n : Nat) (relu : Bool) (A : (⟨2, ![100000, 128]⟩ : Shape).Idx → EReal) (inv : (⟨2, ![100000, 1]⟩ : Shape).Idx → EReal)
    (X : (⟨2, ![100000, 128]⟩ : Shape).Idx → EReal) (Wl : (⟨2, ![n, 128]⟩ : Shape).Idx → EReal)
    (b : (⟨2, ![1, n]⟩ : Shape).Idx → EReal) (Wr : (⟨2, ![n, 128]⟩ : Shape).Idx → EReal) :
    (⟨2, ![100000, n]⟩ : Shape).Idx → EReal :=
  fun y => elemK relu (fun k => A (ix2 (y 0) k)) (fun k => X (ix2 (y 0) k)) (fun k => Wl (ix2 (y 1) k)) (fun k => Wr (ix2 (y 1) k))
    (inv (ix2 (y 0) (0 : Fin 1))) (b (ix2 (0 : Fin 1) (y 1)))

/-- The whole layer in the reference's arrangement: `C` the vector of divisors, `bl` the bias as a vector. -/
def layerR (n : Nat) (relu : Bool) (A : (⟨2, ![100000, 128]⟩ : Shape).Idx → EReal) (C : (⟨1, ![100000]⟩ : Shape).Idx → EReal)
    (X : (⟨2, ![100000, 128]⟩ : Shape).Idx → EReal) (Wl : (⟨2, ![n, 128]⟩ : Shape).Idx → EReal)
    (bl : (⟨1, ![n]⟩ : Shape).Idx → EReal) (Wr : (⟨2, ![n, 128]⟩ : Shape).Idx → EReal) :
    (⟨2, ![100000, n]⟩ : Shape).Idx → EReal :=
  fun y => elemR relu (fun k => A (ix2 (y 0) k)) (fun k => X (ix2 (y 0) k)) (fun k => Wl (ix2 (y 1) k)) (fun k => Wr (ix2 (y 1) k))
    (C (ix1 (y 0))) (bl (ix1 (y 1)))

/-- The two arrangements of the whole layer agree when `inv` is the column of reciprocals of nonzero divisors `C` and the
    bias row is the bias vector. -/
theorem layerK_eq_layerR (n : Nat) (relu : Bool) (A : (⟨2, ![100000, 128]⟩ : Shape).Idx → EReal)
    (inv : (⟨2, ![100000, 1]⟩ : Shape).Idx → EReal) (C : (⟨1, ![100000]⟩ : Shape).Idx → EReal)
    (X : (⟨2, ![100000, 128]⟩ : Shape).Idx → EReal) (Wl : (⟨2, ![n, 128]⟩ : Shape).Idx → EReal)
    (b : (⟨2, ![1, n]⟩ : Shape).Idx → EReal) (bl : (⟨1, ![n]⟩ : Shape).Idx → EReal) (Wr : (⟨2, ![n, 128]⟩ : Shape).Idx → EReal)
    (hinv : ∀ i : Fin 100000, inv (ix2 i (0 : Fin 1)) = Ideal.div 1 (C (ix1 i)))
    (hC : ∀ i : Fin 100000, C (ix1 i) ≠ 0)
    (hb : ∀ j : Fin n, b (ix2 (0 : Fin 1) j) = bl (ix1 j)) :
    layerK n relu A inv X Wl b Wr = layerR n relu A C X Wl bl Wr := by
  funext y
  unfold layerK layerR
  rw [hinv (y 0), hb (y 1)]
  exact elem_eq relu _ _ _ _ (hC (y 0)) _

end Cert.Sage

end
-- ==== Proof.Region0.lean ====
import proofs.«430433_j43550968381728_1_alg».proof.Proof.Gen.KernelIdeal.Frame
import proofs.«430433_j43550968381728_1_alg».proof.Proof.LayerLaw
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open scoped BigOperators

/-- The zero offsets of a whole-block access, however spelt. -/
theorem hz : (![0, 0] : Fin 2 → Nat) = fun _ => 0 := funext fun a => by fin_cases a <;> rfl

/-! ## The matrix product at an element -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product into the zero accumulator, at row `p` and column `q`: the sum over the contracted axis of the left
    operand's row `p` times the right operand's column `q`. -/
theorem matmul_at (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The transposed weight block at `(k, q)` is the block at `(q, k)`. -/
theorem transpose_at (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The count column spread along the lanes: every column of row `p` reads the column's one entry of row `p`. -/
theorem lane_bcast_at (x : FVec Ideal S2000x1 .f32) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun a => match a with
    | ⟨0, _⟩ => rfl
    | ⟨1, _⟩ => rfl)

/-- The bias row spread along the sublanes: every row of column `q` reads the row's entry of column `q`. -/
theorem sublane_bcast_at (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

/-! ## The body's result at an element -/

/-- What the body leaves at row `p`, column `q` of the output block, from the six input blocks: the layer's element in
    the kernel's arrangement, of row `p` of the two feature blocks, row `q` of the two weight blocks, the count
    column's entry of row `p` and the bias row's entry of column `q`. -/
theorem pay_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (q : Fin 128) :
    out0_6 x0 x1 x2 x3 x4 x5 (ix2 p q)
      = Cert.Sage.elemK true (fun k => x0 (ix2 p k)) (fun k => x2 (ix2 p k)) (fun k => x3 (ix2 q k)) (fun k => x5 (ix2 q k))
          (x1 (ix2 p (0 : Fin 1))) (x4 (ix2 (0 : Fin 1) q)) := by
  unfold out0_6
  rw [View.canon_unit_zero hz]
  simp only [View.ld_unit_zero (S := S2000x128) hz, View.ld_unit_zero (S := S2000x1) hz, View.ld_unit_zero (S := S128x128) hz, View.ld_unit_zero (S := S1x128) hz]
  unfold k0_pay1
  simp only [maximumf_apply, addf_apply, mulf_apply, truncf_apply, broadcast_apply, shapeCast_self, matmul_at, lane_bcast_at, sublane_bcast_at]
  have e3 : ∀ k : Fin 128, transpose S128x128 [1, 0] (truncf (F := Ideal) FTy.bf16 x3 bitsLt_bf16_f32) transposes_S128x128_p1_0_S128x128 (ix2 k q) = x3 (ix2 q k) :=
    fun k => transpose_at _ k q
  have e5 : ∀ k : Fin 128, transpose S128x128 [1, 0] (truncf (F := Ideal) FTy.bf16 x5 bitsLt_bf16_f32) transposes_S128x128_p1_0_S128x128 (ix2 k q) = x5 (ix2 q k) :=
    fun k => transpose_at _ k q
  simp only [e3, e5]
  unfold Cert.Sage.elemK Cert.Sage.act
  rw [if_pos rfl]
  rfl

variable (V : (c : Dev nD) → (b : Ref sig .tc) → Buf (Elt Ideal) ((c : Thread nD τ).loc b))

/-! ## Where each window's block sits, at every point of the grid -/

/-- The index maps, decided over the 50 points: the three row windows move with the output window along the rows and stay
    at column block 0; the weight and bias windows stay at block (0, 0); the output window's row block is the point's
    number. -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) ≤ 49 ∧ win0_6.index t (1 : Fin 2) = 0 :=
  (by decide +kernel : ∀ t : Fin grid0.N, _)

/-- Every row block of the output array is some point's. -/
theorem idx_onto : ∀ r : Fin 50, ∃ t : Fin cfg0.N, win0_6.index t = ![r.val, 0] :=
  (by decide +kernel : ∀ r : Fin 50, ∃ t : Fin grid0.N, win0_6.index t = ![r.val, 0])

/-- What point `t` writes back is block `t` of the layer of the six arrays as the launch finds them. -/
theorem flushed_eq (c : Dev nD) (t : Fin cfg0.N) :
    (dat0 (F := Ideal) V c).flushed 6 t = ((cfg0.win 6).blk t).view.read (Elt Ideal)
      (Cert.Sage.layerK 128 true (V c main_v16) (V c main_v12) (V c main_arg0) (V c main_arg2) (V c main_v17) (V c main_arg4)) := by
  show (cfg0.win 6).cut (grid0.coords t) ((dat0 V c).after 6 t) = _
  rw [after0_6]
  funext j
  obtain ⟨p, q, rfl⟩ : ∃ (p : Fin 2000) (q : Fin 128), j = ix2 p q := ⟨j 0, j 1, eq_ix2 j⟩
  show out0_6 (iblk0 V c 0 t) (iblk0 V c 1 t) (iblk0 V c 2 t) (iblk0 V c 3 t) (iblk0 V c 4 t) (iblk0 V c 5 t) (ix2 p q)
      = Cert.Sage.layerK 128 true (V c main_v16) (V c main_v12) (V c main_arg0) (V c main_arg2) (V c main_v17) (V c main_arg4)
          (((cfg0.win 6).blk t).view.emb (ix2 p q))
  refine (pay_at (iblk0 V c 0 t) (iblk0 V c 1 t) (iblk0 V c 2 t) (iblk0 V c 3 t) (iblk0 V c 4 t) (iblk0 V c 5 t) p q).trans ?_
  obtain ⟨e00, e01, e10, e11, e20, e21, e30, e31, e40, e41, e50, e51, e6b, e61⟩ := idx_facts t
  -- the output element's place in the array: row block `t`'s row `p`, column `q`
  have g0 : ((((cfg0.win 6).blk t).view.emb (ix2 p q)) 0).val = win0_6.index t (0 : Fin 2) * 2000 + 1 * p.val := rfl
  have g1 : ((((cfg0.win 6).blk t).view.emb (ix2 p q)) 1).val = win0_6.index t (1 : Fin 2) * 128 + 1 * q.val := rfl
  have h0 : ∀ k : Fin 128, iblk0 V c 0 t (ix2 p k) = V c main_v16 (ix2 ((((cfg0.win 6).blk t).view.emb (ix2 p q)) 0) k) := fun k => by
    show V c main_v16 (((cfg0.win 0).blk t).view.emb (ix2 p k)) = _
    refine congrArg (V c main_v16) (funext fun a => Fin.ext ?_)
    match a with
    | ⟨0, _⟩ => show win0_0.index t (0 : Fin 2) * 2000 + 1 * p.val = _; rw [g0]; omega
    | ⟨1, _⟩ => show win0_0.index t (1 : Fin 2) * 128 + 1 * k.val = k.val; omega
  have h2 : ∀ k : Fin 128, iblk0 V c 2 t (ix2 p k) = V c main_arg0 (ix2 ((((cfg0.win 6).blk t).view.emb (ix2 p q)) 0) k) := fun k => by
    show V c main_arg0 (((cfg0.win 2).blk t).view.emb (ix2 p k)) = _
    refine congrArg (V c main_arg0) (funext fun a => Fin.ext ?_)
    match a with
    | ⟨0, _⟩ => show win0_2.index t (0 : Fin 2) * 2000 + 1 * p.val = _; rw [g0]; omega
    | ⟨1, _⟩ => show win0_2.index t (1 : Fin 2) * 128 + 1 * k.val = k.val; omega
  have h1 : iblk0 V c 1 t (ix2 p (0 : Fin 1)) = V c main_v12 (ix2 ((((cfg0.win 6).blk t).view.emb (ix2 p q)) 0) (0 : Fin 1)) := by
    show V c main_v12 (((cfg0.win 1).blk t).view.emb (ix2 p (0 : Fin 1))) = _
    refine congrArg (V c main_v12) (funext fun a => Fin.ext ?_)
    match a with
    | ⟨0, _⟩ => show win0_1.index t (0 : Fin 2) * 2000 + 1 * p.val = _; rw [g0]; omega
    | ⟨1, _⟩ => show win0_1.index t (1 : Fin 2) * 1 + 1 * 0 = 0; omega
  have h3 : ∀ k : Fin 128, iblk0 V c 3 t (ix2 q k) = V c main_arg2 (ix2 ((((cfg0.win 6).blk t).view.emb (ix2 p q)) 1) k) := fun k => by
    show V c main_arg2 (((cfg0.win 3).blk t).view.emb (ix2 q k)) = _
    refine congrArg (V c main_arg2) (funext fun a => Fin.ext ?_)
    match a with
    | ⟨0, _⟩ => show win0_3.index t (0 : Fin 2) * 128 + 1 * q.val = _; rw [g1]; omega
    | ⟨1, _⟩ => show win0_3.index t (1 : Fin 2) * 128 + 1 * k.val = k.val; omega
  have h5 : ∀ k : Fin 128, iblk0 V c 5 t (ix2 q k) = V c main_arg4 (ix2 ((((cfg0.win 6).blk t).view.emb (ix2 p q)) 1) k) := fun k => by
    show V c main_arg4 (((cfg0.win 5).blk t).view.emb (ix2 q k)) = _
    refine congrArg (V c main_arg4) (funext fun a => Fin.ext ?_)
    match a with
    | ⟨0, _⟩ => show win0_5.index t (0 : Fin 2) * 128 + 1 * q.val = _; rw [g1]; omega
    | ⟨1, _⟩ => show win0_5.index t (1 : Fin 2) * 128 + 1 * k.val = k.val; omega
  have h4 : iblk0 V c 4 t (ix2 (0 : Fin 1) q) = V c main_v17 (ix2 (0 : Fin 1) ((((cfg0.win 6).blk t).view.emb (ix2 p q)) 1)) := by
    show V c main_v17 (((cfg0.win 4).blk t).view.emb (ix2 (0 : Fin 1) q)) = _
    refine congrArg (V c main_v17) (funext fun a => Fin.ext ?_)
    match a with
    | ⟨0, _⟩ => show win0_4.index t (0 : Fin 2) * 1 + 1 * 0 = 0; omega
    | ⟨1, _⟩ => show win0_4.index t (1 : Fin 2) * 128 + 1 * q.val = _; rw [g1]; omega
  exact congr (congr (congr (congr (congr (congrArg (Cert.Sage.elemK true) (funext h0)) (funext h2)) (funext h3)) (funext h5)) h1) h4

/-! ## From the blocks to the array -/

/-- An index of the array is in point `t`'s block iff each coordinate is in the block's range on its axis. -/
theorem mem_blk (t : Fin cfg0.N) (i : S100000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v18).slice (win0_6.rect t)).set ↔ _
  rw [View.set_slice_whole, Rect.mem_set_unit]
  exact Iff.rfl

/-- The 50 blocks of 2000 rows tile the 100000 rows: row `r` lies in the block of point `r / 2000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- Launch 0's output array after the launch is the kernel's arrangement of the layer, of the six input arrays as the
    launch finds them. -/
theorem value (c : Dev nD) :
    (dat0 (F := Ideal) V c).arrAt 6 cfg0.N
      = Cert.Sage.layerK 128 true (V c main_v16) (V c main_v12) (V c main_arg0) (V c main_arg2) (V c main_v17) (V c main_arg4) :=
  (dat0 (F := Ideal) V c).arrAt_eq_of_cover 6 _ (fun t _ => flushed_eq V c t) cover

end Cert.KernelIdeal.Region0

end
-- ==== Proof.Region1.lean ====
import proofs.«430433_j43550968381728_1_alg».proof.Proof.Gen.KernelIdeal.Frame
import proofs.«430433_j43550968381728_1_alg».proof.Proof.LayerLaw
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem Idealize.ShloMosaic.ValueIdx
open scoped BigOperators

/-- The zero offsets of a whole-block access, however spelt. -/
theorem hz : (![0, 0] : Fin 2 → Nat) = fun _ => 0 := funext fun a => by fin_cases a <;> rfl

/-! ## The matrix product at an element -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A product into the zero accumulator, at row `p` and column `q`: the sum over the contracted axis of the left
    operand's row `p` times the right operand's column `q`. -/
theorem matmul_at (a : FVec Ideal S2000x128 .bf16) (b : FVec Ideal S128x128 .bf16) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  show FloatOps.matmul dot_S2000x128_S128x128_S2000x128_1_0_0_1_n_n none a b (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The transposed weight block at `(k, q)` is the block at `(q, k)`. -/
theorem transpose_at (w : FVec Ideal S128x128 .bf16) (k q : Fin 128) :
    transpose S128x128 [1, 0] w transposes_S128x128_p1_0_S128x128 (ix2 k q) = w (ix2 q k) :=
  transpose_apply [1, 0] w transposes_S128x128_p1_0_S128x128 (ix2 k q) (ix2 q k) (fun b => match b with
    | ⟨0, _⟩ => rfl
    | ⟨1, _⟩ => rfl)

/-- The count column spread along the lanes: every column of row `p` reads the column's one entry of row `p`. -/
theorem lane_bcast_at (x : FVec Ideal S2000x1 .f32) (p : Fin 2000) (q : Fin 128) :
    broadcastTo S2000x128 x broadcasts_S2000x1_S2000x128 (ix2 p q) = x (ix2 p (0 : Fin 1)) :=
  broadcastTo_apply x broadcasts_S2000x1_S2000x128 (ix2 p q) (ix2 p (0 : Fin 1)) (fun a => match a with
    | ⟨0, _⟩ => rfl
    | ⟨1, _⟩ => rfl)

/-- The bias row spread along the sublanes: every row of column `q` reads the row's entry of column `q`. -/
theorem sublane_bcast_at (x : FVec Ideal S1x128 .f32) (p : Fin 2000) (q : Fin 128) :
    broadcastTo S2000x128 x broadcasts_S1x128_S2000x128 (ix2 p q) = x (ix2 (0 : Fin 1) q) :=
  broadcastTo_apply x broadcasts_S1x128_S2000x128 (ix2 p q) (ix2 (0 : Fin 1) q) (fun a => match a with
    | ⟨0, _⟩ => rfl
    | ⟨1, _⟩ => rfl)

/-! ## The body's result at an element -/

/-- What the body leaves at row `p`, column `q` of the output block, from the six input blocks: the layer's element in
    the kernel's arrangement, of row `p` of the two feature blocks, row `q` of the two weight blocks, the count
    column's entry of row `p` and the bias row's entry of column `q`. -/
theorem pay_at (x0 : Vec Ideal S2000x128 .f32) (x1 : Vec Ideal S2000x1 .f32) (x2 : Vec Ideal S2000x128 .f32)
    (x3 : Vec Ideal S128x128 .f32) (x4 : Vec Ideal S1x128 .f32) (x5 : Vec Ideal S128x128 .f32) (p : Fin 2000) (q : Fin 128) :
    out1_6 x0 x1 x2 x3 x4 x5 (ix2 p q)
      = Cert.Sage.elemK true (fun k => x0 (ix2 p k)) (fun k => x2 (ix2 p k)) (fun k => x3 (ix2 q k)) (fun k => x5 (ix2 q k))
          (x1 (ix2 p (0 : Fin 1))) (x4 (ix2 (0 : Fin 1) q)) := by
  unfold out1_6
  rw [View.canon_unit_zero hz]
  simp only [View.ld_unit_zero (S := S2000x128) hz, View.ld_unit_zero (S := S2000x1) hz, View.ld_unit_zero (S := S128x128) hz, View.ld_unit_zero (S := S1x128) hz]
  unfold k1_pay1
  simp only [maximumf_apply, addf_apply, mulf_apply, truncf_apply, broadcast_apply, shapeCast_self, matmul_at, lane_bcast_at, sublane_bcast_at]
  have e3 : ∀ k : Fin 128, transpose S128x128 [1, 0] (truncf (F := Ideal) FTy.bf16 x3 bitsLt_bf16_f32) transposes_S128x128_p1_0_S128x128 (ix2 k q) = x3 (ix2 q k) :=
    fun k => transpose_at _ k q
  have e5 : ∀ k : Fin 128, transpose S128x128 [1, 0] (truncf (F := Ideal) FTy.bf16 x5 bitsLt_bf16_f32) transposes_S128x128_p1_0_S128x128 (ix2 k q) = x5 (ix2 q k) :=
    fun k => transpose_at _ k q
  simp only [e3, e5]
  unfold Cert.Sage.elemK Cert.Sage.act
  rw [if_pos rfl]
  rfl

variable (V : (c : Dev nD) → (b : Ref sig .tc) → Buf (Elt Ideal) ((c : Thread nD τ).loc b))

/-! ## Where each window's block sits, at every point of the grid -/

/-- The index maps, decided over the 50 points: the three row windows move with the output window along the rows and stay
    at column block 0; the weight and bias windows stay at block (0, 0); the output window's row block is the point's
    number. -/
theorem idx_facts : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) ≤ 49 ∧ win1_6.index t (1 : Fin 2) = 0 :=
  (by decide +kernel : ∀ t : Fin grid1.N, _)

/-- Every row block of the output array is some point's. -/
theorem idx_onto : ∀ r : Fin 50, ∃ t : Fin cfg1.N, win1_6.index t = ![r.val, 0] :=
  (by decide +kernel : ∀ r : Fin 50, ∃ t : Fin grid1.N, win1_6.index t = ![r.val, 0])

/-- What point `t` writes back is block `t` of the layer of the six arrays as the launch finds them. -/
theorem flushed_eq (c : Dev nD) (t : Fin cfg1.N) :
    (dat1 (F := Ideal) V c).flushed 6 t = ((cfg1.win 6).blk t).view.read (Elt Ideal)
      (Cert.Sage.layerK 128 true (V c main_v22) (V c main_v12) (V c main_v18) (V c main_arg5) (V c main_v23) (V c main_arg7)) := by
  show (cfg1.win 6).cut (grid1.coords t) ((dat1 V c).after 6 t) = _
  rw [after1_6]
  funext j
  obtain ⟨p, q, rfl⟩ : ∃ (p : Fin 2000) (q : Fin 128), j = ix2 p q := ⟨j 0, j 1, eq_ix2 j⟩
  show out1_6 (iblk1 V c 0 t) (iblk1 V c 1 t) (iblk1 V c 2 t) (iblk1 V c 3 t) (iblk1 V c 4 t) (iblk1 V c 5 t) (ix2 p q)
      = Cert.Sage.layerK 128 true (V c main_v22) (V c main_v12) (V c main_v18) (V c main_arg5) (V c main_v23) (V c main_arg7)
          (((cfg1.win 6).blk t).view.emb (ix2 p q))
  refine (pay_at (iblk1 V c 0 t) (iblk1 V c 1 t) (iblk1 V c 2 t) (iblk1 V c 3 t) (iblk1 V c 4 t) (iblk1 V c 5 t) p q).trans ?_
  obtain ⟨e00, e01, e10, e11, e20, e21, e30, e31, e40, e41, e50, e51, e6b, e61⟩ := idx_facts t
  -- the output element's place in the array: row block `t`'s row `p`, column `q`
  have g0 : ((((cfg1.win 6).blk t).view.emb (ix2 p q)) 0).val = win1_6.index t (0 : Fin 2) * 2000 + 1 * p.val := rfl
  have g1 : ((((cfg1.win 6).blk t).view.emb (ix2 p q)) 1).val = win1_6.index t (1 : Fin 2) * 128 + 1 * q.val := rfl
  have h0 : ∀ k : Fin 128, iblk1 V c 0 t (ix2 p k) = V c main_v22 (ix2 ((((cfg1.win 6).blk t).view.emb (ix2 p q)) 0) k) := fun k => by
    show V c main_v22 (((cfg1.win 0).blk t).view.emb (ix2 p k)) = _
    refine congrArg (V c main_v22) (funext fun a => Fin.ext ?_)
    match a with
    | ⟨0, _⟩ => show win1_0.index t (0 : Fin 2) * 2000 + 1 * p.val = _; rw [g0]; omega
    | ⟨1, _⟩ => show win1_0.index t (1 : Fin 2) * 128 + 1 * k.val = k.val; omega
  have h2 : ∀ k : Fin 128, iblk1 V c 2 t (ix2 p k) = V c main_v18 (ix2 ((((cfg1.win 6).blk t).view.emb (ix2 p q)) 0) k) := fun k => by
    show V c main_v18 (((cfg1.win 2).blk t).view.emb (ix2 p k)) = _
    refine congrArg (V c main_v18) (funext fun a => Fin.ext ?_)
    match a with
    | ⟨0, _⟩ => show win1_2.index t (0 : Fin 2) * 2000 + 1 * p.val = _; rw [g0]; omega
    | ⟨1, _⟩ => show win1_2.index t (1 : Fin 2) * 128 + 1 * k.val = k.val; omega
  have h1 : iblk1 V c 1 t (ix2 p (0 : Fin 1)) = V c main_v12 (ix2 ((((cfg1.win 6).blk t).view.emb (ix2 p q)) 0) (0 : Fin 1)) := by
    show V c main_v12 (((cfg1.win 1).blk t).view.emb (ix2 p (0 : Fin 1))) = _
    refine congrArg (V c main_v12) (funext fun a => Fin.ext ?_)
    match a with
    | ⟨0, _⟩ => show win1_1.index t (0 : Fin 2) * 2000 + 1 * p.val = _; rw [g0]; omega
    | ⟨1, _⟩ => show win1_1.index t (1 : Fin 2) * 1 + 1 * 0 = 0; omega
  have h3 : ∀ k : Fin 128, iblk1 V c 3 t (ix2 q k) = V c main_arg5 (ix2 ((((cfg1.win 6).blk t).view.emb (ix2 p q)) 1) k) := fun k => by
    show V c main_arg5 (((cfg1.win 3).blk t).view.emb (ix2 q k)) = _
    refine congrArg (V c main_arg5) (funext fun a => Fin.ext ?_)
    match a with
    | ⟨0, _⟩ => show win1_3.index t (0 : Fin 2) * 128 + 1 * q.val = _; rw [g1]; omega
    | ⟨1, _⟩ => show win1_3.index t (1 : Fin 2) * 128 + 1 * k.val = k.val; omega
  have h5 : ∀ k : Fin 128, iblk1 V c 5 t (ix2 q k) = V c main_arg7 (ix2 ((((cfg1.win 6).blk t).view.emb (ix2 p q)) 1) k) := fun k => by
    show V c main_arg7 (((cfg1.win 5).blk t).view.emb (ix2 q k)) = _
    refine congrArg (V c main_arg7) (funext fun a => Fin.ext ?_)
    match a with
    | ⟨0, _⟩ => show win1_5.index t (0 : Fin 2) * 128 + 1 * q.val = _; rw [g1]; omega
    | ⟨1, _⟩ => show win1_5.index t (1 : Fin 2) * 128 + 1 * k.val = k.val; omega
  have h4 : iblk1 V c 4 t (ix2 (0 : Fin 1) q) = V c main_v23 (ix2 (0 : Fin 1) ((((cfg1.win 6).blk t).view.emb (ix2 p q)) 1)) := by
    show V c main_v23 (((cfg1.win 4).blk t).view.emb (ix2 (0 : Fin 1) q)) = _
    refine congrArg (V c main_v23) (funext fun a => Fin.ext ?_)
    match a with
    | ⟨0, _⟩ => show win1_4.index t (0 : Fin 2) * 1 + 1 * 0 = 0; omega
    | ⟨1, _⟩ => show win1_4.index t (1 : Fin 2) * 128 + 1 * q.val = _; rw [g1]; omega
  exact congr (congr (congr (congr (congr (congrArg (Cert.Sage.elemK true) (funext h0)) (funext h2)) (funext h3)) (funext h5)) h1) h4

/-! ## From the blocks to the array -/

/-- An index of the array is in point `t`'s block iff each coordinate is in the block's range on its axis. -/
theorem mem_blk (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v24).slice (win1_6.rect t)).set ↔ _
  rw [View.set_slice_whole, Rect.mem_set_unit]
  exact Iff.rfl

/-- The 50 blocks of 2000 rows tile the 100000 rows: row `r` lies in the block of point `r / 2000`. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto ⟨(i 0).val / 2000, by omega⟩
  have q0 : win1_6.index t (0 : Fin 2) = (i 0).val / 2000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- Launch 1's output array after the launch is the kernel's arrangement of the layer, of the six input arrays as the
    launch finds them. -/
theorem value (c : Dev nD) :
    (dat1 (F := Ideal) V c).arrAt 6 cfg1.N
      = Cert.Sage.layerK 128 true (V c main_v22) (V c main_v12) (V c main_v18) (V c main_arg5) (V c main_v23) (V c main_arg7) :=
  (dat1 (F := Ideal) V c).arrAt_eq_of_cover 6 _ (fun t _ => flushed_eq V c t) cover

end Cert.KernelIdeal.Region1

end
-- ==== Proof.Region2.lean ====
import proofs.«430433_j43550968381728_1_alg».proof.Proof.Gen.KernelIdeal.Frame
import proofs.«430433_j43550968381728_1_alg».proof.Proof.LayerLaw
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen Idealize.ShloMosaic Idealize.ShloMosaic.TcCoe Idealize.SL.Sem Idealize.ShloMosaic.ValueIdx

variable (V : (c : Dev nD) → (b : Ref sig .tc) → Buf (Elt Ideal) ((c : Thread nD τ).loc b))

/-! ## The contraction's operand indices

The matrix product contracts axis 1 of its left operand with axis 0 of its right operand: at output index (r, c) and
contraction index k the left operand is read at (r, k) and the right one at (k, c). -/

theorem lhs_dot_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_dot_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_dot_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_dot_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The matrix product into the zero accumulator, at an element: the sum over the 128 contracted positions. -/
theorem matmul_at (a : FVec Ideal S2000x128 .bf16) (b : FVec Ideal S128x64 .bf16) (p : Fin 2000) (q : Fin 64) :
    matmul dot_S2000x128_S128x64_S2000x64_1_0_0_1_n_n none a b (constant (F := Ideal) S2000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The transposed weight block at (k, c) is the weight block at (c, k). -/
theorem transpose_at (w : FVec Ideal S64x128 .bf16) (k : Fin 128) (q : Fin 64) :
    transpose S128x64 [1, 0] w transposes_S64x128_p1_0_S128x64 (ix2 k q) = w (ix2 q k) :=
  transpose_apply [1, 0] w transposes_S64x128_p1_0_S128x64 (ix2 k q) (ix2 q k) (fun b => match b with
    | ⟨0, _⟩ => rfl
    | ⟨1, _⟩ => rfl)

/-- The matrix product with a transposed weight block, at an element: row r of the left operand against row c of the
    weight block. -/
theorem matmul_t_at (a : FVec Ideal S2000x128 .bf16) (w : FVec Ideal S64x128 .bf16) (p : Fin 2000) (q : Fin 64) :
    matmul dot_S2000x128_S128x64_S2000x64_1_0_0_1_n_n none a (transpose S128x64 [1, 0] w transposes_S64x128_p1_0_S128x64)
        (constant (F := Ideal) S2000x64 .f32 0x00000000#32) (ix2 p q)
      = ∑ k : Fin 128, a (ix2 p k) * w (ix2 q k) := by
  rw [matmul_at]
  exact Finset.sum_congr rfl fun k _ => by rw [transpose_at]

/-- The count column spread along the lanes, at (r, k), is the column's entry of row r. -/
theorem lanes_at (x : FVec Ideal S2000x1 .f32) (p : Fin 2000) (k : Fin 128) :
    broadcastTo S2000x128 x broadcasts_S2000x1_S2000x128 (ix2 p k) = x (ix2 p (0 : Fin 1)) :=
  broadcastTo_apply x broadcasts_S2000x1_S2000x128 (ix2 p k) (ix2 p (0 : Fin 1)) (fun a => match a with
    | ⟨0, _⟩ => rfl
    | ⟨1, _⟩ => rfl)

/-- The bias row spread along the sublanes, at (r, c), is the row's entry of column c. -/
theorem sublanes_at (x : FVec Ideal S1x64 .f32) (p : Fin 2000) (q : Fin 64) :
    broadcastTo S2000x64 x broadcasts_S1x64_S2000x64 (ix2 p q) = x (ix2 (0 : Fin 1) q) :=
  broadcastTo_apply x broadcasts_S1x64_S2000x64 (ix2 p q) (ix2 (0 : Fin 1) q) (fun a => match a with
    | ⟨0, _⟩ => rfl
    | ⟨1, _⟩ => rfl)

/-- The body's result at an element of the block: the layer's element in the kernel's arrangement, of the row of the two
    feature blocks, the row of the two weight blocks, the row's reciprocal count and the column's bias. -/
theorem pay_at (x0 : Vec Ideal S2000x128 .f32) (x1 : Vec Ideal S2000x1 .f32) (x2 : Vec Ideal S2000x128 .f32)
    (x3 : Vec Ideal S64x128 .f32) (x4 : Vec Ideal S1x64 .f32) (x5 : Vec Ideal S64x128 .f32) (p : Fin 2000) (q : Fin 64) :
    k2_pay1 (F := Ideal) x0 x1 x2 x3 x5 x4 (ix2 p q)
      = Cert.Sage.elemK false (fun k => x0 (ix2 p k)) (fun k => x2 (ix2 p k)) (fun k => x3 (ix2 q k)) (fun k => x5 (ix2 q k))
          (x1 (ix2 p (0 : Fin 1))) (x4 (ix2 (0 : Fin 1) q)) := by
  unfold k2_pay1
  simp only [shapeCast_self]
  rw [addf_apply, addf_apply, matmul_t_at, matmul_t_at, sublanes_at]
  simp only [truncf_apply, mulf_apply, lanes_at]
  unfold Cert.Sage.elemK Cert.Sage.act
  rfl

theorem hz : (![0, 0] : Fin 2 → Nat) = fun _ => 0 := funext fun a => by fin_cases a <;> rfl

/-- What the body leaves in the output block, at an element. -/
theorem out_at (x0 : Vec Ideal S2000x128 .f32) (x1 : Vec Ideal S2000x1 .f32) (x2 : Vec Ideal S2000x128 .f32)
    (x3 : Vec Ideal S64x128 .f32) (x4 : Vec Ideal S1x64 .f32) (x5 : Vec Ideal S64x128 .f32) (p : Fin 2000) (q : Fin 64) :
    out2_6 (F := Ideal) x0 x1 x2 x3 x4 x5 (ix2 p q)
      = Cert.Sage.elemK false (fun k => x0 (ix2 p k)) (fun k => x2 (ix2 p k)) (fun k => x3 (ix2 q k)) (fun k => x5 (ix2 q k))
          (x1 (ix2 p (0 : Fin 1))) (x4 (ix2 (0 : Fin 1) q)) := by
  unfold out2_6
  rw [View.canon_unit_zero hz]
  simp only [View.ld_unit_zero (S := S2000x128) hz, View.ld_unit_zero (S := S2000x1) hz, View.ld_unit_zero (S := S64x128) hz, View.ld_unit_zero (S := S1x64) hz]
  exact pay_at x0 x1 x2 x3 x4 x5 p q

/-! ## From the blocks to the array

At grid point t the three row windows and the output window sit at block row t of their arrays (2000 rows each) and at
block column 0; the weight and bias windows are their whole arrays. -/

/-- The printed index maps, decided over the grid. -/
theorem idx_facts : ∀ t : Fin cfg2.N, win2_0.index t (0 : Fin 2) = win2_6.index t (0 : Fin 2)
    ∧ win2_0.index t (1 : Fin 2) = 0
    ∧ win2_1.index t (0 : Fin 2) = win2_6.index t (0 : Fin 2)
    ∧ win2_1.index t (1 : Fin 2) = 0
    ∧ win2_2.index t (0 : Fin 2) = win2_6.index t (0 : Fin 2)
    ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) ≤ 49 ∧ win2_6.index t (1 : Fin 2) = 0 :=
  (by decide +kernel : ∀ t : Fin grid2.N, _)

/-- Every block row of the output array is some point's. -/
theorem idx_onto : ∀ q0 : Fin 50, ∃ t : Fin cfg2.N, win2_6.index t (0 : Fin 2) = q0.val :=
  (by decide +kernel : ∀ q0 : Fin 50, ∃ t : Fin grid2.N, win2_6.index t (0 : Fin 2) = q0.val)

/-- Row p of the summed-feature block at point t is row r of the array, r the output block's row offset plus p. -/
theorem blk0_at (c : Dev nD) (t : Fin cfg2.N) (p : Fin 2000) (k : Fin 128) (r : Fin 100000)
    (hr : r.val = win2_6.index t (0 : Fin 2) * 2000 + p.val) :
    iblk2 (F := Ideal) V c 0 t (ix2 p k) = V c main_v28 (ix2 r k) := by
  obtain ⟨e00, e01, e10, e11, e20, e21, e30, e31, e40, e41, e50, e51, e60, e61⟩ := idx_facts t
  show V c main_v28 (((cfg2.win 0).blk t).view.emb (ix2 p k)) = V c main_v28 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 128 + 1 * k.val = k.val; omega

/-- The reciprocal-count block likewise. -/
theorem blk1_at (c : Dev nD) (t : Fin cfg2.N) (p : Fin 2000) (r : Fin 100000)
    (hr : r.val = win2_6.index t (0 : Fin 2) * 2000 + p.val) :
    iblk2 (F := Ideal) V c 1 t (ix2 p (0 : Fin 1)) = V c main_v12 (ix2 r (0 : Fin 1)) := by
  obtain ⟨e00, e01, e10, e11, e20, e21, e30, e31, e40, e41, e50, e51, e60, e61⟩ := idx_facts t
  show V c main_v12 (((cfg2.win 1).blk t).view.emb (ix2 p (0 : Fin 1))) = V c main_v12 (ix2 r (0 : Fin 1))
  refine congrArg _ (funext fun a => Fin.ext ?_)
  match a with
  | ⟨0, _⟩ => show win2_1.index t (0 : Fin 2) * 2000 + 1 * p.val = r.val; omega
  | ⟨1, _⟩ => show win2_1.index t (1 : Fin 2) * 1 + 1 * 0 = 0; omega

/-- The node-feature block likewise. -/
theorem blk2_at (c : Dev nD) (t : Fin cfg2.N) (p : Fin 2000) (k : Fin 128) (r : Fin 100000)
    (hr : r.val = win2_6.index t (0 : Fin 2) * 2000 + p.val) :
    iblk2 (F := Ideal) V c 2 t (ix2 p k) = V c main_v24 (ix2 r k) := by
  obtain ⟨e00, e01, e10, e11, e20, e21, e30, e31, e40, e41, e50, e51, e60, e61⟩ := idx_facts t
  show V c main_v24 (((cfg2.win 2).blk t).view.emb (ix2 p k)) = V c main_v24 (ix2 r k)
  refine congrArg _ (funext fun a => Fin.ext ?_)
  match a with
  | ⟨0, _⟩ => show win2_2.index t (0 : Fin 2) * 2000 + 1 * p.val = r.val; omega
  | ⟨1, _⟩ => show win2_2.index t (1 : Fin 2) * 128 + 1 * k.val = k.val; omega

/-- The first weight block is the whole weight array at every point. -/
theorem blk3_at (c : Dev nD) (t : Fin cfg2.N) (q : Fin 64) (k : Fin 128) :
    iblk2 (F := Ideal) V c 3 t (ix2 q k) = V c main_arg8 (ix2 q k) := by
  obtain ⟨e00, e01, e10, e11, e20, e21, e30, e31, e40, e41, e50, e51, e60, e61⟩ := idx_facts t
  show V c main_arg8 (((cfg2.win 3).blk t).view.emb (ix2 q k)) = V c main_arg8 (ix2 q k)
  refine congrArg _ (funext fun a => Fin.ext ?_)
  match a with
  | ⟨0, _⟩ => show win2_3.index t (0 : Fin 2) * 64 + 1 * q.val = q.val; omega
  | ⟨1, _⟩ => show win2_3.index t (1 : Fin 2) * 128 + 1 * k.val = k.val; omega

/-- The bias block is the whole bias row at every point. -/
theorem blk4_at (c : Dev nD) (t : Fin cfg2.N) (q : Fin 64) :
    iblk2 (F := Ideal) V c 4 t (ix2 (0 : Fin 1) q) = V c main_v29 (ix2 (0 : Fin 1) q) := by
  obtain ⟨e00, e01, e10, e11, e20, e21, e30, e31, e40, e41, e50, e51, e60, e61⟩ := idx_facts t
  show V c main_v29 (((cfg2.win 4).blk t).view.emb (ix2 (0 : Fin 1) q)) = V c main_v29 (ix2 (0 : Fin 1) q)
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * q.val = q.val; omega

/-- The second weight block is the whole weight array at every point. -/
theorem blk5_at (c : Dev nD) (t : Fin cfg2.N) (q : Fin 64) (k : Fin 128) :
    iblk2 (F := Ideal) V c 5 t (ix2 q k) = V c main_arg10 (ix2 q k) := by
  obtain ⟨e00, e01, e10, e11, e20, e21, e30, e31, e40, e41, e50, e51, e60, e61⟩ := idx_facts t
  show V c main_arg10 (((cfg2.win 5).blk t).view.emb (ix2 q k)) = V c main_arg10 (ix2 q k)
  refine congrArg _ (funext fun a => Fin.ext ?_)
  match a with
  | ⟨0, _⟩ => show win2_5.index t (0 : Fin 2) * 64 + 1 * q.val = q.val; omega
  | ⟨1, _⟩ => show win2_5.index t (1 : Fin 2) * 128 + 1 * k.val = k.val; omega

/-- The layer's element depends on its six arguments only. -/
theorem elemK_congr {a a' x x' wl wl' wr wr' : Fin 128 → EReal} {i i' b b' : EReal} (ha : a = a') (hx : x = x')
    (hwl : wl = wl') (hwr : wr = wr') (hi : i = i') (hb : b = b') :
    Cert.Sage.elemK false a x wl wr i b = Cert.Sage.elemK false a' x' wl' wr' i' b' := by
  subst ha hx hwl hwr hi hb; rfl

/-- The layer at an index whose coordinates are known. -/
theorem layer_at (A : (⟨2, ![100000, 128]⟩ : Shape).Idx → EReal) (inv : (⟨2, ![100000, 1]⟩ : Shape).Idx → EReal)
    (X : (⟨2, ![100000, 128]⟩ : Shape).Idx → EReal) (Wl : (⟨2, ![64, 128]⟩ : Shape).Idx → EReal)
    (b : (⟨2, ![1, 64]⟩ : Shape).Idx → EReal) (Wr : (⟨2, ![64, 128]⟩ : Shape).Idx → EReal)
    (y : (⟨2, ![100000, 64]⟩ : Shape).Idx) (r : Fin 100000) (q : Fin 64) (h0 : (y 0).val = r.val) (h1 : (y 1).val = q.val) :
    Cert.Sage.layerK 64 false A inv X Wl b Wr y
      = Cert.Sage.elemK false (fun k => A (ix2 r k)) (fun k => X (ix2 r k)) (fun k => Wl (ix2 q k)) (fun k => Wr (ix2 q k))
          (inv (ix2 r (0 : Fin 1))) (b (ix2 (0 : Fin 1) q)) := by
  obtain ⟨r', q', rfl⟩ : ∃ (r' : Fin 100000) (q' : Fin 64), y = ix2 r' q' := ⟨y 0, y 1, eq_ix2 y⟩
  have er : r' = r := Fin.ext h0
  have eq : q' = q := Fin.ext h1
  subst er eq
  rfl

/-- What point t writes back is block t of the layer of the six arrays as the launch finds them. -/
theorem flushed_eq (c : Dev nD) (t : Fin cfg2.N) :
    (dat2 (F := Ideal) V c).flushed 6 t = ((cfg2.win 6).blk t).view.read (Elt Ideal)
      (Cert.Sage.layerK 64 false (V c main_v28) (V c main_v12) (V c main_v24) (V c main_arg8) (V c main_v29) (V c main_arg10)) := by
  show (cfg2.win 6).cut (grid2.coords t) ((dat2 (F := Ideal) V c).after 6 t) = _
  rw [after2_6]
  obtain ⟨e00, e01, e10, e11, e20, e21, e30, e31, e40, e41, e50, e51, e60, e61⟩ := idx_facts t
  funext j
  obtain ⟨p, q, rfl⟩ : ∃ (p : Fin 2000) (q : Fin 64), j = ix2 p q := ⟨j 0, j 1, eq_ix2 j⟩
  have hp : p.val < 2000 := p.isLt
  refine (out_at _ _ _ _ _ _ p q).trans ?_
  refine Eq.trans ?_ (layer_at (V c main_v28) (V c main_v12) (V c main_v24) (V c main_arg8) (V c main_v29) (V c main_arg10)
    (((cfg2.win 6).blk t).view.emb (ix2 p q)) ⟨win2_6.index t (0 : Fin 2) * 2000 + p.val, by omega⟩ q
    (by show win2_6.index t (0 : Fin 2) * 2000 + 1 * p.val = win2_6.index t (0 : Fin 2) * 2000 + p.val; omega)
    (by show win2_6.index t (1 : Fin 2) * 64 + 1 * q.val = q.val; omega)).symm
  exact elemK_congr (funext fun k => blk0_at V c t p k _ rfl) (funext fun k => blk2_at V c t p k _ rfl)
    (funext fun k => blk3_at V c t q k) (funext fun k => blk5_at V c t q k) (blk1_at V c t p _ rfl) (blk4_at V c t q)

/-- An index of the output array is in point t's block iff each coordinate is in the block's range on its axis. -/
theorem mem_blk (t : Fin cfg2.N) (i : S100000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v30).slice (win2_6.rect t)).set ↔ _
  rw [View.set_slice_whole, Rect.mem_set_unit]
  exact Iff.rfl

/-- The fifty blocks of 2000 rows tile the 100000 rows: row r is in the block of point r / 2000. -/
theorem cover (i : S100000x64.Idx) :
    ∃ t : Fin cfg2.N, (cfg2.win 6).flush t = true ∧ i ∈ ((cfg2.win 6).blk t).view.set := by
  have hi0 : (i 0).val < 100000 := (i 0).isLt
  have hi1 : (i 1).val < 64 := (i 1).isLt
  obtain ⟨t, ht⟩ := idx_onto ⟨(i 0).val / 2000, by omega⟩
  have q0 : win2_6.index t (0 : Fin 2) = (i 0).val / 2000 := ht
  obtain ⟨e00, e01, e10, e11, e20, e21, e30, e31, e40, e41, e50, e51, e60, e61⟩ := idx_facts t
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 64 ≤ (i 1).val ∧ (i 1).val < win2_6.index t (1 : Fin 2) * 64 + 64; omega

/-- Launch 2's output array after the launch is the kernel's arrangement of the layer, of the six input arrays as the
    launch finds them. -/
theorem value (c : Dev nD) :
    (dat2 (F := Ideal) V c).arrAt 6 cfg2.N
      = Cert.Sage.layerK 64 false (V c main_v28) (V c main_v12) (V c main_v24) (V c main_arg8) (V c main_v29) (V c main_arg10) :=
  (dat2 (F := Ideal) V c).arrAt_eq_of_cover 6 _ (fun t _ => flushed_eq V c t) cover

end Cert.KernelIdeal.Region2

end
-- ==== Proof.KTerms.lean ====
/-
  The kernel program's host-side values, named: what the operations around the three launches compute from the feature
  array `X` a layer starts from and the edge array `e` (row 0 the edges' source nodes, row 1 their target nodes).

  * `src e`, `dst e`: the two rows of `e` as vectors of 1,600,000 words;
  * `wrap e`: the sources with a negative word raised by the table height 100,000 (numpy's negative indexing);
  * `inRange e`: per edge, the bit "0 ≤ wrapped source ≤ 99,999";
  * `rows X e`: row `wrap e` of `X` per edge (a row gather);
  * `take X e`: the same rows where `inRange`, and the not-a-number word's value elsewhere (`jnp.take`'s fill mode);
  * `agg X e`: those rows summed into their target nodes (a scatter-add into zeros): the summed neighbour features;
  * `cnt e`: per node, the number of edges that target it (ones scatter-added into zeros), raised to at least one;
  * `inv e`: the reciprocal of `cnt e`, as a column;
  * `biasRow`: a bias vector as a one-row matrix.
-/
import proofs.«430433_j43550968381728_1_alg».proof.Proof.Gen.KernelIdeal

noncomputable section

namespace Cert.KernelIdeal.Terms

open Cert.KernelIdeal Cert.KernelIdeal.Gen Idealize.ShloMosaic

variable {F : FTy → Type} [FloatOps F]

/-- The edges' source nodes: row 0 of the edge array. -/
def src (e : IVec S2x1600000 32) : IVec S1600000 32 :=
  shapeCast S1600000 (extractStridedSlice S1x1600000 ![0, 0] e slices_S2x1600000_S1x1600000_0_0) shapeCasts_S1x1600000_S1600000

/-- The edges' target nodes: row 1 of the edge array. -/
def dst (e : IVec S2x1600000 32) : IVec S1600000 32 :=
  shapeCast S1600000 (extractStridedSlice S1x1600000 ![1, 0] e slices_S2x1600000_S1x1600000_1_0) shapeCasts_S1x1600000_S1600000

/-- The sources with a negative word raised by the table height. -/
def wrap (e : IVec S2x1600000 32) : IVec S1600000 32 :=
  select (cmpi .slt (src e) (broadcastInDim S1600000 ![] bcast_S_S1600000 (constantI S_ 32 0#32)))
    (addi (src e) (broadcastInDim S1600000 ![] bcast_S_S1600000 (constantI S_ 32 100000#32))) (src e)

/-- The wrapped sources as a column of start indices. -/
def wcol (e : IVec S2x1600000 32) : IVec S1600000x1 32 :=
  broadcastInDim S1600000x1 ![0] bcast_S1600000_S1600000x1_0 (wrap e)

/-- Per edge: is the wrapped source a row of the table? -/
def inRange (e : IVec S2x1600000 32) : IVec S1600000 1 :=
  Host.reduce IntOp.andi
    (andi (cmpi .sge (wcol e) (broadcastInDim S1600000x1 ![] bcast_S_S1600000x1 (constantI S_ 32 0#32)))
      (cmpi .sle (wcol e) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge, the table's row at the wrapped source. -/
def rows (X : FVec F S100000x128 .f32) (e : IVec S2x1600000 32) : FVec F S1600000x128 .f32 :=
  Host.gather gather_S100000x128_S1600000x1_S1600000x128_1_0_n_n_0_1_1128 X (wcol e)

/-- Per edge, that row where the source is in range and the not-a-number word elsewhere. -/
def take (X : FVec F S100000x128 .f32) (e : IVec S2x1600000 32) : FVec F S1600000x128 .f32 :=
  select (broadcastInDim S1600000x128 ![0] bcast_S1600000_S1600000x128_0 (inRange e)) (rows X e)
    (broadcastInDim S1600000x128 ![] bcast_S_S1600000x128 (constant S_ .f32 0x7FC00000#32))

/-- The summed neighbour features: each edge's taken row added into its target node's row, from zeros. -/
def agg (X : FVec F S100000x128 .f32) (e : IVec S2x1600000 32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 (dst e)) (take X e)

/-- Per node, the number of edges that target it, raised to at least one. -/
def cnt (e : IVec S2x1600000 32) : FVec F S100000 .f32 :=
  maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 (dst e))
      (broadcastInDim S1600000 ![] bcast_S_S1600000 (constant S_ .f32 0x3F800000#32)))
    (broadcastInDim S100000 ![] bcast_S_S100000 (constant S_ .f32 0x3F800000#32))

/-- The reciprocal of that count, as a column. -/
def inv (e : IVec S2x1600000 32) : FVec F S100000x1 .f32 :=
  shapeCast S100000x1 (Host.divf (broadcastInDim S100000 ![] bcast_S_S100000 (constant S_ .f32 0x3F800000#32)) (cnt (F := F) e))
    shapeCasts_S100000_S100000x1

/-- A 128-entry bias vector as a one-row matrix. -/
def biasRow128 (b : FVec F S128 .f32) : FVec F S1x128 .f32 := shapeCast S1x128 b shapeCasts_S128_S1x128

/-- A 64-entry bias vector as a one-row matrix. -/
def biasRow64 (b : FVec F S64 .f32) : FVec F S1x64 .f32 := shapeCast S1x64 b shapeCasts_S64_S1x64

end Cert.KernelIdeal.Terms

end
-- ==== Proof.KHost0.lean ====
import proofs.«430433_j43550968381728_1_alg».proof.Proof.Gen.KernelIdeal.Frame
import proofs.«430433_j43550968381728_1_alg».proof.Proof.KTerms
import Idealize.ShloMosaic.Lib.StableHlo.Run
import Idealize.ShloMosaic.PureOps.Ideal

set_option maxRecDepth 16384

noncomputable section

namespace Cert.KernelIdeal.Host0

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! What launch 0 finds in its six input arrays: the host operations before it, read back as functions of the argument
    arrays (the run's buffer contents at the launch's entry are a fold of those operations from the launch memory).

    Each of the three lists of operations is first read from ANY contents `V` of the buffers: the buffer an operation
    writes holds the operation's function of what its operands held, and a buffer no operation of the list writes holds
    what it held. The three readings are then chained from the launch memory. -/

/-- A buffer that no operation of a literal list writes holds after the list what it held before. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

/-- Contents moved to a typed reference's buffer and back are the contents: the two transports along the
    reference's type equation cancel (stated for every typed reference, so that no buffer type is computed to use it). -/
theorem ofBuf_toBuf {T : BufTy} (x : StableHlo.TRef sig T) (v : T.Contents (Elt Ideal)) :
    no_index (x.ofBuf (x.toBuf v)) = v := by
  obtain ⟨r, rfl, _, _⟩ := x; rfl

section Lists
variable (V : Valuation τ sig (Elt Ideal))

/-! ## The first list: the two rows of the edge array, and the reciprocal of the raised in-degree -/

theorem l0_v1 : StableHlo.after (hostOps0 (F := Ideal)) V (Proc.devRef .tc main_v1) = Terms.src (V (Proc.devRef .tc main_arg1)) := by
  after_results; rfl
theorem l0_v3 : StableHlo.after (hostOps0 (F := Ideal)) V (Proc.devRef .tc main_v3) = Terms.dst (V (Proc.devRef .tc main_arg1)) := by
  after_results; rfl
theorem l0_v12 : StableHlo.after (hostOps0 (F := Ideal)) V (Proc.devRef .tc main_v12) = Terms.inv (F := Ideal) (V (Proc.devRef .tc main_arg1)) := by
  after_results; rfl
theorem l0_arg0 : StableHlo.after (hostOps0 (F := Ideal)) V (Proc.devRef .tc main_arg0) = V (Proc.devRef .tc main_arg0) := by
  keeps hostOps0
theorem l0_arg2 : StableHlo.after (hostOps0 (F := Ideal)) V (Proc.devRef .tc main_arg2) = V (Proc.devRef .tc main_arg2) := by
  keeps hostOps0
theorem l0_arg3 : StableHlo.after (hostOps0 (F := Ideal)) V (Proc.devRef .tc main_arg3) = V (Proc.devRef .tc main_arg3) := by
  keeps hostOps0
theorem l0_arg4 : StableHlo.after (hostOps0 (F := Ideal)) V (Proc.devRef .tc main_arg4) = V (Proc.devRef .tc main_arg4) := by
  keeps hostOps0

/-! ## The second list: the table's rows at the wrapped sources, filled where a source is no row

It reads the sources and the table and writes neither, nor the targets, the reciprocals or the arguments. Its
operations are stated over typed references: what one writes is its function's value moved to the buffer's type, and
what the next reads is moved back; the pairs cancel (`ofBuf_toBuf`), and at the three buffers read or written from
outside the list the single transport is the identity (the reference's type is the value's, by computation on ONE
reference). What is left is, after the sources are named, the taken rows' term letter for letter. -/

theorem rd_v1 : (StableHlo.TRef.of main_v1 : StableHlo.TRef sig ⟨S1600000, .i32⟩).ofBuf (V (Proc.devRef .tc main_v1)) = V (Proc.devRef .tc main_v1) := rfl
theorem rd_arg0 : (StableHlo.TRef.of main_arg0 : StableHlo.TRef sig ⟨S100000x128, .f32⟩).ofBuf (V (Proc.devRef .tc main_arg0)) = V (Proc.devRef .tc main_arg0) := rfl
theorem rd_v13 (y : (Proc.devRef (τ := τ) .tc main_v13).ty.Contents (Elt Ideal)) :
    (StableHlo.TRef.of main_v13 : StableHlo.TRef sig ⟨S1600000x128, .f32⟩).ofBuf y = y := rfl

/-- The taken rows, read at the result's own type. -/
theorem l1_v13_typed (e : IVec S2x1600000 32) (h : V (Proc.devRef .tc main_v1) = Terms.src e) :
    (StableHlo.TRef.of main_v13 : StableHlo.TRef sig ⟨S1600000x128, .f32⟩).ofBuf (StableHlo.after (hostOps0_1 (F := Ideal)) V (Proc.devRef .tc main_v13))
      = Terms.take (F := Ideal) (V (Proc.devRef .tc main_arg0)) e := by
  after_results_simp
  simp only [ofBuf_toBuf]
  rw [rd_v1, rd_arg0, h]
  delta Terms.take Terms.rows Terms.inRange Terms.wcol Terms.wrap
  rfl
theorem l1_v13 (e : IVec S2x1600000 32) (h : V (Proc.devRef .tc main_v1) = Terms.src e) :
    StableHlo.after (hostOps0_1 (F := Ideal)) V (Proc.devRef .tc main_v13) = Terms.take (F := Ideal) (V (Proc.devRef .tc main_arg0)) e :=
  (rd_v13 _).symm.trans (l1_v13_typed V e h)
theorem l1_v3 : StableHlo.after (hostOps0_1 (F := Ideal)) V (Proc.devRef .tc main_v3) = V (Proc.devRef .tc main_v3) := by
  keeps hostOps0_1
theorem l1_v12 : StableHlo.after (hostOps0_1 (F := Ideal)) V (Proc.devRef .tc main_v12) = V (Proc.devRef .tc main_v12) := by
  keeps hostOps0_1
theorem l1_arg0 : StableHlo.after (hostOps0_1 (F := Ideal)) V (Proc.devRef .tc main_arg0) = V (Proc.devRef .tc main_arg0) := by
  keeps hostOps0_1
theorem l1_arg2 : StableHlo.after (hostOps0_1 (F := Ideal)) V (Proc.devRef .tc main_arg2) = V (Proc.devRef .tc main_arg2) := by
  keeps hostOps0_1
theorem l1_arg3 : StableHlo.after (hostOps0_1 (F := Ideal)) V (Proc.devRef .tc main_arg3) = V (Proc.devRef .tc main_arg3) := by
  keeps hostOps0_1
theorem l1_arg4 : StableHlo.after (hostOps0_1 (F := Ideal)) V (Proc.devRef .tc main_arg4) = V (Proc.devRef .tc main_arg4) := by
  keeps hostOps0_1

/-! ## The third list: the taken rows added into their targets' rows from zeros, and the bias as a one-row matrix -/

theorem l2_v16 (X : FVec Ideal S100000x128 .f32) (e : IVec S2x1600000 32) (h3 : V (Proc.devRef .tc main_v3) = Terms.dst e)
    (h13 : V (Proc.devRef .tc main_v13) = Terms.take (F := Ideal) X e) :
    StableHlo.after (hostOps0_2 (F := Ideal)) V (Proc.devRef .tc main_v16) = Terms.agg (F := Ideal) X e := by
  after_results; rw [h3, h13]; rfl
theorem l2_v17 : StableHlo.after (hostOps0_2 (F := Ideal)) V (Proc.devRef .tc main_v17) = Terms.biasRow128 (F := Ideal) (V (Proc.devRef .tc main_arg3)) := by
  after_results; rfl
theorem l2_v12 : StableHlo.after (hostOps0_2 (F := Ideal)) V (Proc.devRef .tc main_v12) = V (Proc.devRef .tc main_v12) := by
  keeps hostOps0_2
theorem l2_arg0 : StableHlo.after (hostOps0_2 (F := Ideal)) V (Proc.devRef .tc main_arg0) = V (Proc.devRef .tc main_arg0) := by
  keeps hostOps0_2
theorem l2_arg2 : StableHlo.after (hostOps0_2 (F := Ideal)) V (Proc.devRef .tc main_arg2) = V (Proc.devRef .tc main_arg2) := by
  keeps hostOps0_2
theorem l2_arg4 : StableHlo.after (hostOps0_2 (F := Ideal)) V (Proc.devRef .tc main_arg4) = V (Proc.devRef .tc main_arg4) := by
  keeps hostOps0_2

end Lists

/-! ## Chained from the launch memory -/

/-- After the first list: the sources, the targets, the reciprocals, and the table as launched. -/
theorem W1_v1 (c : Dev nD) : W1 (F := Ideal) m ρ c (Proc.devRef .tc main_v1) = Terms.src (m ((c : Thread nD τ).loc main_arg1)) :=
  l0_v1 (W0 m ρ c)
theorem W1_v3 (c : Dev nD) : W1 (F := Ideal) m ρ c (Proc.devRef .tc main_v3) = Terms.dst (m ((c : Thread nD τ).loc main_arg1)) :=
  l0_v3 (W0 m ρ c)
theorem W1_v12 (c : Dev nD) : W1 (F := Ideal) m ρ c (Proc.devRef .tc main_v12) = Terms.inv (F := Ideal) (m ((c : Thread nD τ).loc main_arg1)) :=
  l0_v12 (W0 m ρ c)
theorem W1_arg0 (c : Dev nD) : W1 (F := Ideal) m ρ c (Proc.devRef .tc main_arg0) = m ((c : Thread nD τ).loc main_arg0) :=
  l0_arg0 (W0 m ρ c)

/-- After the second list: the taken rows; the targets and the reciprocals as the first list left them. -/
theorem W2_v13 (c : Dev nD) : W2 (F := Ideal) m ρ c (Proc.devRef .tc main_v13)
    = Terms.take (F := Ideal) (m ((c : Thread nD τ).loc main_arg0)) (m ((c : Thread nD τ).loc main_arg1)) :=
  (l1_v13 (W1 m ρ c) (m ((c : Thread nD τ).loc main_arg1)) (W1_v1 m ρ c)).trans
    (congrArg (fun X => Terms.take (F := Ideal) X (m ((c : Thread nD τ).loc main_arg1))) (W1_arg0 m ρ c))
theorem W2_v3 (c : Dev nD) : W2 (F := Ideal) m ρ c (Proc.devRef .tc main_v3) = Terms.dst (m ((c : Thread nD τ).loc main_arg1)) :=
  (l1_v3 (W1 m ρ c)).trans (W1_v3 m ρ c)

theorem V3_agg (c : Dev nD) : V3 (F := Ideal) m ρ c main_v16 = Terms.agg (F := Ideal) (m ((c : Thread nD τ).loc main_arg0)) (m ((c : Thread nD τ).loc main_arg1)) :=
  l2_v16 (W2 m ρ c) _ _ (W2_v3 m ρ c) (W2_v13 m ρ c)
theorem V3_inv (c : Dev nD) : V3 (F := Ideal) m ρ c main_v12 = Terms.inv (F := Ideal) (m ((c : Thread nD τ).loc main_arg1)) :=
  (l2_v12 (W2 m ρ c)).trans ((l1_v12 (W1 m ρ c)).trans (W1_v12 m ρ c))
theorem V3_bias (c : Dev nD) : V3 (F := Ideal) m ρ c main_v17 = Terms.biasRow128 (F := Ideal) (m ((c : Thread nD τ).loc main_arg3)) :=
  (l2_v17 (W2 m ρ c)).trans (congrArg (Terms.biasRow128 (F := Ideal)) ((l1_arg3 (W1 m ρ c)).trans (l0_arg3 (W0 m ρ c))))
theorem V3_arg0 (c : Dev nD) : V3 (F := Ideal) m ρ c main_arg0 = (m ((c : Thread nD τ).loc main_arg0)) :=
  (l2_arg0 (W2 m ρ c)).trans ((l1_arg0 (W1 m ρ c)).trans (l0_arg0 (W0 m ρ c)))
theorem V3_arg2 (c : Dev nD) : V3 (F := Ideal) m ρ c main_arg2 = (m ((c : Thread nD τ).loc main_arg2)) :=
  (l2_arg2 (W2 m ρ c)).trans ((l1_arg2 (W1 m ρ c)).trans (l0_arg2 (W0 m ρ c)))
theorem V3_arg4 (c : Dev nD) : V3 (F := Ideal) m ρ c main_arg4 = (m ((c : Thread nD τ).loc main_arg4)) :=
  (l2_arg4 (W2 m ρ c)).trans ((l1_arg4 (W1 m ρ c)).trans (l0_arg4 (W0 m ρ c)))

end Cert.KernelIdeal.Host0

end
-- ==== Proof.KHost1.lean ====
import proofs.«430433_j43550968381728_1_alg».proof.Proof.Gen.KernelIdeal.Frame
import proofs.«430433_j43550968381728_1_alg».proof.Proof.KTerms
import Idealize.ShloMosaic.Lib.StableHlo.Run
import Idealize.ShloMosaic.PureOps.Ideal

set_option maxRecDepth 16384

noncomputable section

namespace Cert.KernelIdeal.Host1

open Cert.KernelIdeal Cert.KernelIdeal.Gen Idealize.ShloMosaic Idealize.ShloMosaic.TcCoe Idealize.SL.Sem

/-! ## The host operation lists, run from any buffer contents

Each list is a straight line of operations; what it leaves in one buffer is either what was there (no operation of
the list writes it) or the composed term of the operations that lead to it, read off operation by operation. -/

section Lists

variable {F : FTy → Type} [FloatOps F] (V : Valuation τ sig (Elt F))

/-- A transport there and back again is the identity. -/
theorem cast_cast_self {α β : Sort _} (h : α = β) (h' : β = α) (a : α) : cast h' (cast h a) = a := by cases h; rfl

/-- The three lists before the first launch split the edge array into its source row, -/
theorem pre_v1 :
    StableHlo.after hostOps0_2 (StableHlo.after hostOps0_1 (StableHlo.after hostOps0 V)) (Proc.devRef .tc main_v1)
      = Terms.src (V (Proc.devRef .tc main_arg1)) := by
  after_results; rfl

/-- its target row, -/
theorem pre_v3 :
    StableHlo.after hostOps0_2 (StableHlo.after hostOps0_1 (StableHlo.after hostOps0 V)) (Proc.devRef .tc main_v3)
      = Terms.dst (V (Proc.devRef .tc main_arg1)) := by
  after_results; rfl

/-- and compute the reciprocal in-degree column from the target row. -/
theorem pre_v12 :
    StableHlo.after hostOps0_2 (StableHlo.after hostOps0_1 (StableHlo.after hostOps0 V)) (Proc.devRef .tc main_v12)
      = Terms.inv (F := F) (V (Proc.devRef .tc main_arg1)) := by
  after_results; rfl

/-- They write none of the second layer's weight and bias arguments. -/
theorem pre_arg5 :
    StableHlo.after hostOps0_2 (StableHlo.after hostOps0_1 (StableHlo.after hostOps0 V)) (Proc.devRef .tc main_arg5)
      = V (Proc.devRef .tc main_arg5) := by
  after_results
theorem pre_arg6 :
    StableHlo.after hostOps0_2 (StableHlo.after hostOps0_1 (StableHlo.after hostOps0 V)) (Proc.devRef .tc main_arg6)
      = V (Proc.devRef .tc main_arg6) := by
  after_results
theorem pre_arg7 :
    StableHlo.after hostOps0_2 (StableHlo.after hostOps0_1 (StableHlo.after hostOps0 V)) (Proc.devRef .tc main_arg7)
      = V (Proc.devRef .tc main_arg7) := by
  after_results

/-- The buffer of the gathered rows holds a value of its own type as it is. -/
theorem toBuf_v19 (T : FVec F S1600000x128 .f32) :
    (StableHlo.TRef.of main_v19 : StableHlo.TRef sig ⟨S1600000x128, .f32⟩).toBuf (Val := Elt F) T = T := rfl

/-- The gather between the first and the second launch: per edge the row of the table `X` at the edge's wrapped
    source, or the not-a-number word where that source is out of range, once the source row is known to be the
    edge array's. The operations are stated over typed buffers; reading the two inputs in their typed form makes
    every transport meet its inverse. -/
theorem mid_v19 (e : IVec S2x1600000 32) (X : FVec F S100000x128 .f32) (h1 : V (Proc.devRef .tc main_v1) = Terms.src e)
    (h18 : V (Proc.devRef .tc main_v18) = X) :
    StableHlo.after hostOps1 V (Proc.devRef .tc main_v19) = Terms.take (F := F) X e := by
  have h1' : V (Proc.devRef .tc main_v1) = (StableHlo.TRef.of main_v1 : StableHlo.TRef sig ⟨S1600000, .i32⟩).toBuf (Terms.src e) := h1
  have h18' : V (Proc.devRef .tc main_v18) = (StableHlo.TRef.of main_v18 : StableHlo.TRef sig ⟨S100000x128, .f32⟩).toBuf X := h18
  after_results_simp
  rw [h1', h18']
  simp only [StableHlo.TRef.ofBuf, StableHlo.TRef.toBuf, cast_cast_self]
  refine (toBuf_v19 _).trans ?_
  rfl

/-- The gather's list leaves the target row as it was. -/
theorem take_v3 : StableHlo.after hostOps1 V (Proc.devRef .tc main_v3) = V (Proc.devRef .tc main_v3) := by
  after_results

/-- The scatter after it: the gathered rows summed into their edges' targets, from zeros. -/
theorem sum_v22 (e : IVec S2x1600000 32) (X : FVec F S100000x128 .f32) (h3 : V (Proc.devRef .tc main_v3) = Terms.dst e)
    (h19 : V (Proc.devRef .tc main_v19) = Terms.take (F := F) X e) :
    StableHlo.after hostOps1_1 V (Proc.devRef .tc main_v22) = Terms.agg (F := F) X e := by
  after_results
  rw [h3, h19]
  rfl

/-- Both lists together: the summed neighbour features of the table `X` found in the first launch's output buffer. -/
theorem mid_v22 (e : IVec S2x1600000 32) (X : FVec F S100000x128 .f32) (h1 : V (Proc.devRef .tc main_v1) = Terms.src e)
    (h3 : V (Proc.devRef .tc main_v3) = Terms.dst e) (h18 : V (Proc.devRef .tc main_v18) = X) :
    StableHlo.after hostOps1_1 (StableHlo.after hostOps1 V) (Proc.devRef .tc main_v22) = Terms.agg (F := F) X e :=
  sum_v22 (StableHlo.after hostOps1 V) e X ((take_v3 V).trans h3) (mid_v19 V e X h1 h18)

/-- The second layer's bias becomes a one-row matrix. -/
theorem mid_v23 :
    StableHlo.after hostOps1_1 (StableHlo.after hostOps1 V) (Proc.devRef .tc main_v23)
      = Terms.biasRow128 (F := F) (V (Proc.devRef .tc main_arg6)) := by
  after_results; rfl

/-- The reciprocal in-degree column, the first layer's output and the second layer's weights are written by neither list. -/
theorem mid_v12 :
    StableHlo.after hostOps1_1 (StableHlo.after hostOps1 V) (Proc.devRef .tc main_v12) = V (Proc.devRef .tc main_v12) := by
  after_results
theorem mid_v18 :
    StableHlo.after hostOps1_1 (StableHlo.after hostOps1 V) (Proc.devRef .tc main_v18) = V (Proc.devRef .tc main_v18) := by
  after_results
theorem mid_arg5 :
    StableHlo.after hostOps1_1 (StableHlo.after hostOps1 V) (Proc.devRef .tc main_arg5) = V (Proc.devRef .tc main_arg5) := by
  after_results
theorem mid_arg7 :
    StableHlo.after hostOps1_1 (StableHlo.after hostOps1 V) (Proc.devRef .tc main_arg7) = V (Proc.devRef .tc main_arg7) := by
  after_results

end Lists

variable (m : (ℓ : Loc nD τ sig) → Buf (Elt Ideal) ℓ) (ρ : Dev nD → PrngReg)

/-! ## The first launch's exit

The launch leaves every buffer that is none of its arrays as it found it, and an input array as it found it too. -/

theorem W4_v1 (c : Dev nD) : W4 (F := Ideal) m ρ c (Proc.devRef .tc main_v1) = Terms.src (m ((c : Thread nD τ).loc main_arg1)) :=
  (W4_of_ne m ρ c main_v1 (by decide)).trans (pre_v1 (W0 m ρ c))
theorem W4_v3 (c : Dev nD) : W4 (F := Ideal) m ρ c (Proc.devRef .tc main_v3) = Terms.dst (m ((c : Thread nD τ).loc main_arg1)) :=
  (W4_of_ne m ρ c main_v3 (by decide)).trans (pre_v3 (W0 m ρ c))
theorem W4_v12 (c : Dev nD) : W4 (F := Ideal) m ρ c (Proc.devRef .tc main_v12) = Terms.inv (F := Ideal) (m ((c : Thread nD τ).loc main_arg1)) :=
  (W4_arr m ρ c 1).trans ((((dat0 (V3 m ρ) c).arrAt_in 1 rfl _).trans (A_eq0 (V3 m ρ) c 1)).trans (pre_v12 (W0 m ρ c)))
theorem W4_arg5 (c : Dev nD) : W4 (F := Ideal) m ρ c (Proc.devRef .tc main_arg5) = m ((c : Thread nD τ).loc main_arg5) :=
  (W4_of_ne m ρ c main_arg5 (by decide)).trans (pre_arg5 (W0 m ρ c))
theorem W4_arg6 (c : Dev nD) : W4 (F := Ideal) m ρ c (Proc.devRef .tc main_arg6) = m ((c : Thread nD τ).loc main_arg6) :=
  (W4_of_ne m ρ c main_arg6 (by decide)).trans (pre_arg6 (W0 m ρ c))
theorem W4_arg7 (c : Dev nD) : W4 (F := Ideal) m ρ c (Proc.devRef .tc main_arg7) = m ((c : Thread nD τ).loc main_arg7) :=
  (W4_of_ne m ρ c main_arg7 (by decide)).trans (pre_arg7 (W0 m ρ c))

/-! What launch 1 finds in its six input arrays, from launch 0's exit contents and the argument arrays. -/

theorem V6_agg (c : Dev nD) : V6 (F := Ideal) m ρ c main_v22 = Terms.agg (F := Ideal) (V4 (F := Ideal) m ρ c main_v18) (m ((c : Thread nD τ).loc main_arg1)) :=
  mid_v22 (W4 m ρ c) _ _ (W4_v1 m ρ c) (W4_v3 m ρ c) rfl
theorem V6_inv (c : Dev nD) : V6 (F := Ideal) m ρ c main_v12 = Terms.inv (F := Ideal) (m ((c : Thread nD τ).loc main_arg1)) :=
  (mid_v12 (W4 m ρ c)).trans (W4_v12 m ρ c)
theorem V6_x (c : Dev nD) : V6 (F := Ideal) m ρ c main_v18 = V4 (F := Ideal) m ρ c main_v18 :=
  mid_v18 (W4 m ρ c)
theorem V6_bias (c : Dev nD) : V6 (F := Ideal) m ρ c main_v23 = Terms.biasRow128 (F := Ideal) (m ((c : Thread nD τ).loc main_arg6)) :=
  (mid_v23 (W4 m ρ c)).trans (congrArg (Terms.biasRow128 (F := Ideal)) (W4_arg6 m ρ c))
theorem V6_arg5 (c : Dev nD) : V6 (F := Ideal) m ρ c main_arg5 = (m ((c : Thread nD τ).loc main_arg5)) :=
  (mid_arg5 (W4 m ρ c)).trans (W4_arg5 m ρ c)
theorem V6_arg7 (c : Dev nD) : V6 (F := Ideal) m ρ c main_arg7 = (m ((c : Thread nD τ).loc main_arg7)) :=
  (mid_arg7 (W4 m ρ c)).trans (W4_arg7 m ρ c)

end Cert.KernelIdeal.Host1

end
-- ==== Proof.KHost2.lean ====
import proofs.«430433_j43550968381728_1_alg».proof.Proof.Gen.KernelIdeal.Frame
import proofs.«430433_j43550968381728_1_alg».proof.Proof.KTerms
import proofs.«430433_j43550968381728_1_alg».proof.Proof.KHost0
import Idealize.ShloMosaic.Lib.StableHlo.Run
import Idealize.ShloMosaic.PureOps.Ideal

set_option maxRecDepth 16384

noncomputable section

namespace Cert.KernelIdeal.Host2

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! What launch 2 finds in its six input arrays, from launch 1's exit contents and the argument arrays.

    The two lists of operations before the launch are first read from ANY contents `V` of the buffers. The sources, the
    targets and the reciprocals were written before launch 0: no list after the first writes them, and a launch leaves
    a buffer that is none of its arrays, and each of its input arrays, as it found it; so they are walked back, segment
    by segment, to where the first list left them. -/

/-- A buffer that no operation of a literal list writes holds after the list what it held before. -/
local macro "keeps " ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.reshape_writes, Finset.mem_singleton]
      repeat' apply And.intro
      all_goals exact StableHlo.devRef_ne_of_ne (by decide))))

section Lists
variable (V : Valuation τ sig (Elt Ideal))

/-! ## The list after launch 1: the rows of launch 1's output at the wrapped sources, filled where a source is no row

As before launch 0: the operations are over typed references, the transports to a buffer's type and back cancel in
pairs, and at the three buffers read or written from outside the list the single transport is the identity. -/

theorem rd_v24 : (StableHlo.TRef.of main_v24 : StableHlo.TRef sig ⟨S100000x128, .f32⟩).ofBuf (V (Proc.devRef .tc main_v24)) = V (Proc.devRef .tc main_v24) := rfl
theorem rd_v25 (y : (Proc.devRef (τ := τ) .tc main_v25).ty.Contents (Elt Ideal)) :
    (StableHlo.TRef.of main_v25 : StableHlo.TRef sig ⟨S1600000x128, .f32⟩).ofBuf y = y := rfl

/-- The taken rows, read at the result's own type. -/
theorem l2_v25_typed (e : IVec S2x1600000 32) (h : V (Proc.devRef .tc main_v1) = Terms.src e) :
    (StableHlo.TRef.of main_v25 : StableHlo.TRef sig ⟨S1600000x128, .f32⟩).ofBuf (StableHlo.after (hostOps2 (F := Ideal)) V (Proc.devRef .tc main_v25))
      = Terms.take (F := Ideal) (V (Proc.devRef .tc main_v24)) e := by
  after_results_simp
  simp only [Host0.ofBuf_toBuf]
  rw [Host0.rd_v1, rd_v24, h]
  delta Terms.take Terms.rows Terms.inRange Terms.wcol Terms.wrap
  rfl
theorem l2_v25 (e : IVec S2x1600000 32) (h : V (Proc.devRef .tc main_v1) = Terms.src e) :
    StableHlo.after (hostOps2 (F := Ideal)) V (Proc.devRef .tc main_v25) = Terms.take (F := Ideal) (V (Proc.devRef .tc main_v24)) e :=
  (rd_v25 _).symm.trans (l2_v25_typed V e h)
theorem l2_v3 : StableHlo.after (hostOps2 (F := Ideal)) V (Proc.devRef .tc main_v3) = V (Proc.devRef .tc main_v3) := by
  keeps hostOps2
theorem l2_v12 : StableHlo.after (hostOps2 (F := Ideal)) V (Proc.devRef .tc main_v12) = V (Proc.devRef .tc main_v12) := by
  keeps hostOps2
theorem l2_v24 : StableHlo.after (hostOps2 (F := Ideal)) V (Proc.devRef .tc main_v24) = V (Proc.devRef .tc main_v24) := by
  keeps hostOps2
theorem l2_arg9 : StableHlo.after (hostOps2 (F := Ideal)) V (Proc.devRef .tc main_arg9) = V (Proc.devRef .tc main_arg9) := by
  keeps hostOps2

/-! ## The last list: the taken rows added into their targets' rows from zeros, and the bias as a one-row matrix -/

theorem l21_v28 (X : FVec Ideal S100000x128 .f32) (e : IVec S2x1600000 32) (h3 : V (Proc.devRef .tc main_v3) = Terms.dst e)
    (h25 : V (Proc.devRef .tc main_v25) = Terms.take (F := Ideal) X e) :
    StableHlo.after (hostOps2_1 (F := Ideal)) V (Proc.devRef .tc main_v28) = Terms.agg (F := Ideal) X e := by
  after_results; rw [h3, h25]; rfl
theorem l21_v29 : StableHlo.after (hostOps2_1 (F := Ideal)) V (Proc.devRef .tc main_v29) = Terms.biasRow64 (F := Ideal) (V (Proc.devRef .tc main_arg9)) := by
  after_results; rfl
theorem l21_v12 : StableHlo.after (hostOps2_1 (F := Ideal)) V (Proc.devRef .tc main_v12) = V (Proc.devRef .tc main_v12) := by
  keeps hostOps2_1
theorem l21_v24 : StableHlo.after (hostOps2_1 (F := Ideal)) V (Proc.devRef .tc main_v24) = V (Proc.devRef .tc main_v24) := by
  keeps hostOps2_1
theorem l21_arg9 : StableHlo.after (hostOps2_1 (F := Ideal)) V (Proc.devRef .tc main_arg9) = V (Proc.devRef .tc main_arg9) := by
  keeps hostOps2_1

/-! ## The lists between launch 0's entry and launch 1's: none writes the sources, the targets or the reciprocals -/

theorem l01_v1 : StableHlo.after (hostOps0_1 (F := Ideal)) V (Proc.devRef .tc main_v1) = V (Proc.devRef .tc main_v1) := by
  keeps hostOps0_1
theorem l02_v1 : StableHlo.after (hostOps0_2 (F := Ideal)) V (Proc.devRef .tc main_v1) = V (Proc.devRef .tc main_v1) := by
  keeps hostOps0_2
theorem l02_v3 : StableHlo.after (hostOps0_2 (F := Ideal)) V (Proc.devRef .tc main_v3) = V (Proc.devRef .tc main_v3) := by
  keeps hostOps0_2
theorem l1_v1 : StableHlo.after (hostOps1 (F := Ideal)) V (Proc.devRef .tc main_v1) = V (Proc.devRef .tc main_v1) := by
  keeps hostOps1
theorem l1_v3 : StableHlo.after (hostOps1 (F := Ideal)) V (Proc.devRef .tc main_v3) = V (Proc.devRef .tc main_v3) := by
  keeps hostOps1
theorem l1_v12 : StableHlo.after (hostOps1 (F := Ideal)) V (Proc.devRef .tc main_v12) = V (Proc.devRef .tc main_v12) := by
  keeps hostOps1
theorem l11_v1 : StableHlo.after (hostOps1_1 (F := Ideal)) V (Proc.devRef .tc main_v1) = V (Proc.devRef .tc main_v1) := by
  keeps hostOps1_1
theorem l11_v3 : StableHlo.after (hostOps1_1 (F := Ideal)) V (Proc.devRef .tc main_v3) = V (Proc.devRef .tc main_v3) := by
  keeps hostOps1_1
theorem l11_v12 : StableHlo.after (hostOps1_1 (F := Ideal)) V (Proc.devRef .tc main_v12) = V (Proc.devRef .tc main_v12) := by
  keeps hostOps1_1

end Lists

/-! ## Walked back through the segments -/

/-- At launch 1's exit the sources are still row 0 of the edge array: neither launch has them among its arrays. -/
theorem W7_v1 (c : Dev nD) : W7 (F := Ideal) m ρ c (Proc.devRef .tc main_v1) = Terms.src (m ((c : Thread nD τ).loc main_arg1)) :=
  calc W7 (F := Ideal) m ρ c (Proc.devRef .tc main_v1)
    _ = W6 m ρ c (Proc.devRef .tc main_v1) := W7_of_ne m ρ c main_v1 (by decide)
    _ = W5 m ρ c (Proc.devRef .tc main_v1) := l11_v1 (W5 m ρ c)
    _ = W4 m ρ c (Proc.devRef .tc main_v1) := l1_v1 (W4 m ρ c)
    _ = W3 m ρ c (Proc.devRef .tc main_v1) := W4_of_ne m ρ c main_v1 (by decide)
    _ = W2 m ρ c (Proc.devRef .tc main_v1) := l02_v1 (W2 m ρ c)
    _ = W1 m ρ c (Proc.devRef .tc main_v1) := l01_v1 (W1 m ρ c)
    _ = Terms.src (m ((c : Thread nD τ).loc main_arg1)) := Host0.W1_v1 m ρ c

/-- And the targets row 1. -/
theorem W7_v3 (c : Dev nD) : W7 (F := Ideal) m ρ c (Proc.devRef .tc main_v3) = Terms.dst (m ((c : Thread nD τ).loc main_arg1)) :=
  calc W7 (F := Ideal) m ρ c (Proc.devRef .tc main_v3)
    _ = W6 m ρ c (Proc.devRef .tc main_v3) := W7_of_ne m ρ c main_v3 (by decide)
    _ = W5 m ρ c (Proc.devRef .tc main_v3) := l11_v3 (W5 m ρ c)
    _ = W4 m ρ c (Proc.devRef .tc main_v3) := l1_v3 (W4 m ρ c)
    _ = W3 m ρ c (Proc.devRef .tc main_v3) := W4_of_ne m ρ c main_v3 (by decide)
    _ = W2 m ρ c (Proc.devRef .tc main_v3) := l02_v3 (W2 m ρ c)
    _ = W1 m ρ c (Proc.devRef .tc main_v3) := Host0.l1_v3 (W1 m ρ c)
    _ = Terms.dst (m ((c : Thread nD τ).loc main_arg1)) := Host0.W1_v3 m ρ c

/-- The reciprocals are an input array (window 1) of launches 0 and 1: each leaves them as it found them. -/
theorem W7_v12 (c : Dev nD) : W7 (F := Ideal) m ρ c (Proc.devRef .tc main_v12) = Terms.inv (F := Ideal) (m ((c : Thread nD τ).loc main_arg1)) :=
  calc W7 (F := Ideal) m ρ c (Proc.devRef .tc main_v12)
    _ = W6 m ρ c (Proc.devRef .tc main_v12) := (W7_arr m ρ c 1).trans (((dat1 (V6 m ρ) c).arrAt_in 1 rfl _).trans (A_eq1 (V6 m ρ) c 1))
    _ = W5 m ρ c (Proc.devRef .tc main_v12) := l11_v12 (W5 m ρ c)
    _ = W4 m ρ c (Proc.devRef .tc main_v12) := l1_v12 (W4 m ρ c)
    _ = W3 m ρ c (Proc.devRef .tc main_v12) := (W4_arr m ρ c 1).trans (((dat0 (V3 m ρ) c).arrAt_in 1 rfl _).trans (A_eq0 (V3 m ρ) c 1))
    _ = Terms.inv (F := Ideal) (m ((c : Thread nD τ).loc main_arg1)) := Host0.V3_inv m ρ c

/-- After the list that follows launch 1: the rows taken from launch 1's output. -/
theorem W8_v25 (c : Dev nD) : W8 (F := Ideal) m ρ c (Proc.devRef .tc main_v25)
    = Terms.take (F := Ideal) (V7 (F := Ideal) m ρ c main_v24) (m ((c : Thread nD τ).loc main_arg1)) :=
  l2_v25 (W7 m ρ c) (m ((c : Thread nD τ).loc main_arg1)) (W7_v1 m ρ c)
theorem W8_v3 (c : Dev nD) : W8 (F := Ideal) m ρ c (Proc.devRef .tc main_v3) = Terms.dst (m ((c : Thread nD τ).loc main_arg1)) :=
  (l2_v3 (W7 m ρ c)).trans (W7_v3 m ρ c)

/-- The bias is an argument no list writes and none of launch 2's arrays: at launch 2's entry it is what it is at the
    exit, the launch memory's. -/
theorem W8_arg9 (c : Dev nD) : W8 (F := Ideal) m ρ c (Proc.devRef .tc main_arg9) = m ((c : Thread nD τ).loc main_arg9) :=
  calc W8 (F := Ideal) m ρ c (Proc.devRef .tc main_arg9)
    _ = W9 m ρ c (Proc.devRef .tc main_arg9) := (l21_arg9 (W8 m ρ c)).symm
    _ = W10 m ρ c (Proc.devRef .tc main_arg9) := (W10_of_ne m ρ c main_arg9 (by decide)).symm
    _ = m ((c : Thread nD τ).loc main_arg9) := W10_main_arg9 m ρ c

theorem V9_agg (c : Dev nD) : V9 (F := Ideal) m ρ c main_v28 = Terms.agg (F := Ideal) (V7 (F := Ideal) m ρ c main_v24) (m ((c : Thread nD τ).loc main_arg1)) :=
  l21_v28 (W8 m ρ c) _ _ (W8_v3 m ρ c) (W8_v25 m ρ c)
theorem V9_inv (c : Dev nD) : V9 (F := Ideal) m ρ c main_v12 = Terms.inv (F := Ideal) (m ((c : Thread nD τ).loc main_arg1)) :=
  (l21_v12 (W8 m ρ c)).trans ((l2_v12 (W7 m ρ c)).trans (W7_v12 m ρ c))
theorem V9_x (c : Dev nD) : V9 (F := Ideal) m ρ c main_v24 = V7 (F := Ideal) m ρ c main_v24 :=
  (l21_v24 (W8 m ρ c)).trans (l2_v24 (W7 m ρ c))
theorem V9_bias (c : Dev nD) : V9 (F := Ideal) m ρ c main_v29 = Terms.biasRow64 (F := Ideal) (m ((c : Thread nD τ).loc main_arg9)) :=
  (l21_v29 (W8 m ρ c)).trans (congrArg (Terms.biasRow64 (F := Ideal)) (W8_arg9 m ρ c))
theorem V9_arg8 (c : Dev nD) : V9 (F := Ideal) m ρ c main_arg8 = (m ((c : Thread nD τ).loc main_arg8)) :=
  ((W10_arr m ρ c 3).trans (((dat2 (V9 m ρ) c).arrAt_in 3 rfl _).trans (A_eq2 (V9 m ρ) c 3))).symm.trans (W10_main_arg8 m ρ c)
theorem V9_arg10 (c : Dev nD) : V9 (F := Ideal) m ρ c main_arg10 = (m ((c : Thread nD τ).loc main_arg10)) :=
  ((W10_arr m ρ c 5).trans (((dat2 (V9 m ρ) c).arrAt_in 5 rfl _).trans (A_eq2 (V9 m ρ) c 5))).symm.trans (W10_main_arg10 m ρ c)

end Cert.KernelIdeal.Host2

end
-- ==== Proof.KLayers.lean ====
/-
  The kernel program's three layers as functions of the argument arrays: each layer is the kernel's arrangement of a SAGE
  layer (`Cert.Sage.layerK`) fed with the summed neighbour features of the previous layer's result, the reciprocal
  neighbour counts, the previous result itself, and that layer's weights and bias; the first two rectify, the last
  (64 columns wide) does not.
-/
import proofs.«430433_j43550968381728_1_alg».proof.Proof.KTerms
import proofs.«430433_j43550968381728_1_alg».proof.Proof.LayerLaw

noncomputable section

namespace Cert.KernelIdeal.Layers

open Cert.KernelIdeal Cert.KernelIdeal.Gen Idealize.ShloMosaic

/-- Layer 1 of the kernel program, from the node features `x` and the edges `e`. -/
def h1 (x : FVec Ideal S100000x128 .f32) (e : IVec S2x1600000 32) (wl1 : FVec Ideal S128x128 .f32) (b1 : FVec Ideal S128 .f32)
    (wr1 : FVec Ideal S128x128 .f32) : FVec Ideal S100000x128 .f32 :=
  Cert.Sage.layerK 128 true (Terms.agg (F := Ideal) x e) (Terms.inv (F := Ideal) e) x wl1 (Terms.biasRow128 (F := Ideal) b1) wr1

/-- Layer 2, from layer 1's result. -/
def h2 (x : FVec Ideal S100000x128 .f32) (e : IVec S2x1600000 32) (wl1 : FVec Ideal S128x128 .f32) (b1 : FVec Ideal S128 .f32)
    (wr1 : FVec Ideal S128x128 .f32) (wl2 : FVec Ideal S128x128 .f32) (b2 : FVec Ideal S128 .f32) (wr2 : FVec Ideal S128x128 .f32) :
    FVec Ideal S100000x128 .f32 :=
  Cert.Sage.layerK 128 true (Terms.agg (F := Ideal) (h1 x e wl1 b1 wr1) e) (Terms.inv (F := Ideal) e) (h1 x e wl1 b1 wr1) wl2
    (Terms.biasRow128 (F := Ideal) b2) wr2

/-- Layer 3, the program's result, from layer 2's. -/
def out (x : FVec Ideal S100000x128 .f32) (e : IVec S2x1600000 32) (wl1 : FVec Ideal S128x128 .f32) (b1 : FVec Ideal S128 .f32)
    (wr1 : FVec Ideal S128x128 .f32) (wl2 : FVec Ideal S128x128 .f32) (b2 : FVec Ideal S128 .f32) (wr2 : FVec Ideal S128x128 .f32)
    (wl3 : FVec Ideal S64x128 .f32) (b3 : FVec Ideal S64 .f32) (wr3 : FVec Ideal S64x128 .f32) : FVec Ideal S100000x64 .f32 :=
  Cert.Sage.layerK 64 false (Terms.agg (F := Ideal) (h2 x e wl1 b1 wr1 wl2 b2 wr2) e) (Terms.inv (F := Ideal) e)
    (h2 x e wl1 b1 wr1 wl2 b2 wr2) wl3 (Terms.biasRow64 (F := Ideal) b3) wr3

end Cert.KernelIdeal.Layers

end
-- ==== Proof.KValue.lean ====
import proofs.«430433_j43550968381728_1_alg».proof.Proof.Region0
import proofs.«430433_j43550968381728_1_alg».proof.Proof.Region1
import proofs.«430433_j43550968381728_1_alg».proof.Proof.Region2
import proofs.«430433_j43550968381728_1_alg».proof.Proof.KHost0
import proofs.«430433_j43550968381728_1_alg».proof.Proof.KHost1
import proofs.«430433_j43550968381728_1_alg».proof.Proof.KHost2
import proofs.«430433_j43550968381728_1_alg».proof.Proof.KLayers

set_option maxRecDepth 16384

noncomputable section

namespace Cert.KernelIdeal.Value3

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-! The kernel program's result, launch by launch: a launch's output array at its exit is the layer function of its six
    input arrays as it found them, and those are the host operations' values of the argument arrays and of the previous
    launch's output. -/

/-- Launch 0's output array at its exit is layer 1 of the argument arrays. -/
theorem h1_value (c : Dev nD) : V4 (F := Ideal) m ρ c main_v18 = Layers.h1 (m ((c : Thread nD τ).loc main_arg0)) (m ((c : Thread nD τ).loc main_arg1)) (m ((c : Thread nD τ).loc main_arg2)) (m ((c : Thread nD τ).loc main_arg3)) (m ((c : Thread nD τ).loc main_arg4)) := by
  have e : V4 (F := Ideal) m ρ c main_v18 = (dat0 (F := Ideal) (V3 m ρ) c).arrAt 6 cfg0.N := W4_arr m ρ c 6
  rw [e, Region0.value (V3 m ρ) c, Host0.V3_agg, Host0.V3_inv, Host0.V3_arg0, Host0.V3_arg2, Host0.V3_bias, Host0.V3_arg4]
  rfl

/-- Launch 1's output array at its exit is layer 2 of the argument arrays. -/
theorem h2_value (c : Dev nD) : V7 (F := Ideal) m ρ c main_v24 = Layers.h2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have e : V7 (F := Ideal) m ρ c main_v24 = (dat1 (F := Ideal) (V6 m ρ) c).arrAt 6 cfg1.N := W7_arr m ρ c 6
  rw [e, Region1.value (V6 m ρ) c, Host1.V6_agg, Host1.V6_inv, Host1.V6_x, Host1.V6_arg5, Host1.V6_bias, Host1.V6_arg7, h1_value]
  rfl

/-- The program's result buffer at the end of the run is layer 3 of the argument arrays. -/
theorem kernel_value (c : Dev nD) : W10 (F := Ideal) m ρ c (Proc.devRef .tc main_v30) = Layers.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e : W10 (F := Ideal) m ρ c (Proc.devRef .tc main_v30) = (dat2 (F := Ideal) (V9 m ρ) c).arrAt 6 cfg2.N := W10_arr m ρ c 6
  rw [e, Region2.value (V9 m ρ) c, Host2.V9_agg, Host2.V9_inv, Host2.V9_x, Host2.V9_arg8, Host2.V9_bias, Host2.V9_arg10, h2_value]
  rfl

end Cert.KernelIdeal.Value3

end
-- ==== Proof.Mask.lean ====
import proofs.«430433_j43550968381728_1_alg».proof.Defs
import proofs.«430433_j43550968381728_1_alg».proof.Proof.KTerms
import proofs.«430433_j43550968381728_1_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

set_option maxRecDepth 16384

noncomputable section

namespace Cert.KernelIdeal.Mask

open Cert.KernelIdeal Cert.KernelIdeal.Gen Idealize.ShloMosaic Idealize.ShloMosaic.TcCoe Idealize.SL.Sem Idealize.ShloMosaic.ValueIdx

/-! ## Words -/

/-- A left fold by `and` from 1 over bits that are all 1 ends at 1. -/
private theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = (1#1 : BitVec 1) from by decide]
    exact foldl_andi_ones f l fun n hn => h n (List.mem_cons_of_mem _ hn)

/-- A word that reads nonnegative does not test below zero. -/
private theorem slt_zero_of_nonneg (w : BitVec 32) (h0 : 0 ≤ w.toInt) : IntOp.cmpi .slt w 0#32 = 0#1 :=
  eq_zero_of_ne_one fun hc => by
    have hlt := IntOp.cmpi_slt.1 hc
    rw [show (0#32 : BitVec 32).toInt = 0 from by decide] at hlt
    omega

/-- A word that reads nonnegative tests at least zero. -/
private theorem sge_zero_of_nonneg (w : BitVec 32) (h0 : 0 ≤ w.toInt) : IntOp.cmpi .sge w 0#32 = 1#1 :=
  IntOp.cmpi_sge.2 (by rw [show (0#32 : BitVec 32).toInt = 0 from by decide]; exact h0)

/-- A word that reads below 100000 tests at most 99999. -/
private theorem sle_bound_of_lt (w : BitVec 32) (h1 : w.toInt < 100000) : IntOp.cmpi .sle w 99999#32 = 1#1 :=
  IntOp.cmpi_sle.2 (by rw [show (99999#32 : BitVec 32).toInt = 99999 from by decide]; omega)

/-! ## The wrapped source is the source -/

/-- At an edge whose source reads nonnegative the wrap leaves the source as it is. -/
private theorem wrap_apply (e : IVec S2x1600000 32) (i : S1600000.Idx) (h0 : 0 ≤ (Terms.src e i).toInt) :
    Terms.wrap e i = Terms.src e i := by
  unfold Terms.wrap
  generalize Terms.src e = s at h0 ⊢
  rw [select_apply]
  have hc : cmpi .slt s (broadcastInDim S1600000 ![] bcast_S_S1600000 (constantI S_ 32 0#32)) i = 0#1 :=
    slt_zero_of_nonneg (s i) h0
  rw [hc, select_zero]

/-- The row of the one-column index array an index of it lies in. -/
private abbrev rowOf (k : S1600000x1.Idx) : S1600000.Idx := fun a => match a with
  | ⟨0, _⟩ => ⟨(k 0).val, (k 0).isLt⟩

/-- The column of wrapped sources at an index is the wrapped source of that row. -/
private theorem wcol_apply (e : IVec S2x1600000 32) (k : S1600000x1.Idx) : Terms.wcol e k = Terms.wrap e (rowOf k) := by
  unfold Terms.wcol
  generalize Terms.wrap e = y
  exact broadcastInDim_apply _ bcast_S1600000_S1600000x1_0 y k (rowOf k) (fun a => match a with
    | ⟨0, _⟩ => by show (k 0).val = if (1600000 : Nat) = 1 then 0 else (k 0).val; rw [if_neg (by decide)])

/-- Every element the range bit folds over is 1 where every source is a node number. -/
private theorem range_elem (e : IVec S2x1600000 32)
    (h : ∀ i : S1600000.Idx, 0 ≤ (Terms.src e i).toInt ∧ (Terms.src e i).toInt < 100000) (k : S1600000x1.Idx) :
    andi (cmpi .sge (Terms.wcol e) (broadcastInDim S1600000x1 ![] bcast_S_S1600000x1 (constantI S_ 32 0#32)))
      (cmpi .sle (Terms.wcol e) (broadcastInDim S1600000x1 ![0, 1] bcast_S1x1_S1600000x1_0_1
        (broadcastInDim S1x1 ![1] bcast_S1_S1x1_1 (constantI S1 32 99999#32)))) k = 1#1 := by
  have hw : Terms.wcol e k = Terms.src e (rowOf k) := by rw [wcol_apply, wrap_apply e _ (h _).1]
  generalize Terms.wcol e = c at hw ⊢
  show IntOp.andi (IntOp.cmpi .sge (c k) 0#32) (IntOp.cmpi .sle (c k) 99999#32) = 1#1
  rw [hw, sge_zero_of_nonneg _ (h _).1, sle_bound_of_lt _ (h _).2]
  decide

/-- Where every source is a node number the range bit is set on every edge. -/
private theorem inRange_apply (e : IVec S2x1600000 32)
    (h : ∀ i : S1600000.Idx, 0 ≤ (Terms.src e i).toInt ∧ (Terms.src e i).toInt < 100000) (i : S1600000.Idx) :
    Terms.inRange e i = 1#1 := by
  unfold Terms.inRange
  rw [Host.reduce_eq_foldl]
  exact foldl_andi_ones _ _ fun k _ => range_elem e h k

/-- Where every edge's source is a node number, 0 ≤ source < 100000, the wrapped source is the source, the range bit is
    set on every edge, and the taken rows are the gathered rows: the fill value is never selected. -/
theorem take_eq_rows (X : FVec Ideal S100000x128 .f32) (e : IVec S2x1600000 32)
    (h : ∀ i : S1600000.Idx, 0 ≤ (Terms.src e i).toInt ∧ (Terms.src e i).toInt < 100000) :
    Terms.take (F := Ideal) X e = Terms.rows (F := Ideal) X e := by
  unfold Terms.take
  funext y
  rw [select_apply]
  have hm : broadcastInDim S1600000x128 ![0] bcast_S1600000_S1600000x128_0 (Terms.inRange e) y = 1#1 := by
    have hb : broadcastInDim S1600000x128 ![0] bcast_S1600000_S1600000x128_0 (Terms.inRange e) y
        = Terms.inRange e (fun a => match a with | ⟨0, _⟩ => ⟨(y 0).val, (y 0).isLt⟩) := by
      generalize Terms.inRange e = r
      exact broadcastInDim_apply _ bcast_S1600000_S1600000x128_0 r y _ (fun a => match a with
        | ⟨0, _⟩ => by show (y 0).val = if (1600000 : Nat) = 1 then 0 else (y 0).val; rw [if_neg (by decide)])
    rw [hb, inRange_apply e h]
  rw [hm, select_one]

/-! ## The precondition's index range, read back -/

/-- The result shape of a reduction over every axis has one index. -/
private instance : Subsingleton S_.Idx := ⟨fun a b => funext fun d => d.elim0⟩

/-- The precondition's last conjunct, read back: every word of row 0 of the edge array is in [0, 100000). -/
theorem src_range_of_pre (m : (ℓ : Loc nD τ sig) → Buf (Elt Ideal) ℓ) (hpre : Cert.Pre_KernelIdeal m) (c : Dev nD) :
    ∀ i : S1600000.Idx, 0 ≤ (Terms.src (m ((c.tc : Thread nD τ).loc main_arg1)) i).toInt
      ∧ (Terms.src (m ((c.tc : Thread nD τ).loc main_arg1)) i).toInt < 100000 := by
  intro i
  have e := congrFun (hpre c) ValueIdx.ix0
  unfold Cert.Pre_finite_inputs.fn Cert.Pre_finite_inputs.fn_part1 Cert.Pre_finite_inputs.fn_part2
    Cert.Pre_finite_inputs.fn_part3 at e
  -- the outermost `and` of the all-ones bit: its right operand is the fold over the index conjunct
  have e2 := (IntOp.andi_eq_one.1 e).2
  -- every element under that fold is 1
  have e3 := Host.reduce_andi_all _ _ _ _ _ e2 i
  obtain ⟨hge, hlt⟩ := IntOp.andi_eq_one.1 e3
  -- the two compares, read signed; the bounds are the literals 0 and 100000
  have hge' : (0#32 : BitVec 32).toInt ≤ (Terms.src (m ((c.tc : Thread nD τ).loc main_arg1)) i).toInt :=
    IntOp.cmpi_sge.1 hge
  have hlt' : (Terms.src (m ((c.tc : Thread nD τ).loc main_arg1)) i).toInt < (100000#32 : BitVec 32).toInt :=
    IntOp.cmpi_slt.1 hlt
  rw [show (0#32 : BitVec 32).toInt = 0 from by decide] at hge'
  rw [show (100000#32 : BitVec 32).toInt = 100000 from by decide] at hlt'
  exact ⟨hge', hlt'⟩

end Cert.KernelIdeal.Mask

end
-- ==== Proof.KTermsAt.lean ====
import proofs.«430433_j43550968381728_1_alg».proof.Proof.KTerms
import Idealize.ShloMosaic.Lib.ValueIdx
import Idealize.ShloMosaic.Lib.Pipeline.Value
import Idealize.ShloMosaic.Lib.IdealHost

set_option maxRecDepth 16384

noncomputable section

namespace Cert.KernelIdeal.TermsAt

open Cert.KernelIdeal Cert.KernelIdeal.Gen Idealize.ShloMosaic Idealize.ShloMosaic.ValueIdx

/-! The kernel program's reciprocal-count column and bias rows, read at an index: a reshape moves no element, so the
    column's entry `(i, 0)` is the vector's entry `i` and the row's entry `(0, j)` the vector's entry `j`. -/

/-- The host's quotient of two vectors, at an index, is the quotient of the entries. -/
theorem hostDivf_at {s : Shape} (a b : FVec Ideal s .f32) (j : s.Idx) : Host.divf a b j = Ideal.div (a j) (b j) := rfl

/-- The vector of ones has the extended real one at every node. -/
theorem ones_at (j : S100000.Idx) :
    (broadcastInDim S100000 ![] bcast_S_S100000 (constant (F := Ideal) S_ .f32 0x3F800000#32)) j = 1 := by
  rw [broadcastInDim_apply _ bcast_S_S100000 _ j ix0 (fun a => a.elim0)]
  exact Ideal.ofBits_one_f32

/-- The reciprocal column at row `i` is one over the raised count of node `i`. -/
theorem inv_apply (e : IVec S2x1600000 32) (i : Fin 100000) :
    Terms.inv (F := Ideal) e (ix2 i (0 : Fin 1)) = Ideal.div 1 (Terms.cnt (F := Ideal) e (ix1 i)) := by
  unfold Terms.inv
  generalize Terms.cnt (F := Ideal) e = C
  rw [shapeCast_apply _ shapeCasts_S100000_S100000x1 (ix2 i (0 : Fin 1)) (ix1 i) (by
    rw [Shape.rowMajor_val_one, Shape.rowMajor_val_two]; show i.val = i.val * 1 + 0; omega)]
  rw [hostDivf_at, ones_at]

/-- The bias row at column `j` is the bias vector's entry `j`. -/
theorem biasRow128_apply (b : FVec Ideal S128 .f32) (j : Fin 128) : Terms.biasRow128 (F := Ideal) b (ix2 (0 : Fin 1) j) = b (ix1 j) := by
  unfold Terms.biasRow128
  exact shapeCast_apply _ shapeCasts_S128_S1x128 (ix2 (0 : Fin 1) j) (ix1 j) (by
    rw [Shape.rowMajor_val_one, Shape.rowMajor_val_two]; show j.val = 0 * 128 + j.val; omega)

/-- The 64-entry bias row at column `j` is the bias vector's entry `j`. -/
theorem biasRow64_apply (b : FVec Ideal S64 .f32) (j : Fin 64) : Terms.biasRow64 (F := Ideal) b (ix2 (0 : Fin 1) j) = b (ix1 j) := by
  unfold Terms.biasRow64
  exact shapeCast_apply _ shapeCasts_S64_S1x64 (ix2 (0 : Fin 1) j) (ix1 j) (by
    rw [Shape.rowMajor_val_one, Shape.rowMajor_val_two]; show j.val = 0 * 64 + j.val; omega)

end Cert.KernelIdeal.TermsAt

end
-- ==== Proof.RefStages.lean ====
import proofs.«430433_j43550968381728_1_alg».proof.Proof.Gen.ReferenceIdeal.Run
import proofs.«430433_j43550968381728_1_alg».proof.Proof.Gen.ReferenceIdeal.Read
import proofs.«430433_j43550968381728_1_alg».proof.Proof.LayerLaw
import Idealize.ShloMosaic.Lib.IdealHost

set_option maxRecDepth 16384

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.ValueIdx

/-! The reference program's three layers, each read at an index through its operations' stages: a layer's result is the
    reference's arrangement of a SAGE layer (`Cert.Sage.layerR`) of the stage holding the summed neighbour features, the
    stage holding the raised neighbour counts, the previous layer's result, and the layer's weights and bias.

    Each layer is read one element at a time. Its four summands are read separately at row `p`, column `q`: the
    product of the averaged neighbour features with the transposed weights is `Σₖ (Aₚₖ / cₚ) · Wlₖ` (row `q` of `Wl`,
    because the program multiplies by the transpose); the bias broadcast over the rows is `b` at `q`; the product of the
    previous layer's result with the other transposed weights is `Σₖ Xₚₖ · Wrₖ`; the rectifier's second operand is the
    value of the word `+0.0`. The index maps of the transposes, broadcasts and contractions are compared coordinate by
    coordinate. -/

/-! ### Layer 1 -/

/-- The bias, broadcast over the rows, read at an element. -/
theorem v26_at (x3 : (⟨S128, .f32⟩ : BufTy).Contents (Elt Ideal)) (p : Fin 100000) (q : Fin 128) :
    val_main_v26 (F := Ideal) x3 (ix2 p q) = x3 (ix1 q) := by
  rw [val_main_v26_apply, val_main_v25_apply]
  have e : idx_main_v25 (idx_main_v26 (ix2 p q)) = ix1 q := funext fun a => by match a with | ⟨0, _⟩ => rfl
  rw [e]

/-- The rectifier's zeros, read at an element. -/
theorem call0_at (p : Fin 100000) (q : Fin 128) :
    val_main_call0_v0 (F := Ideal) (ix2 p q) = Ideal.ofBits .f32 0x00000000#32 := by
  rw [val_main_call0_v0_apply, val_main_call0_cst_apply]
  rfl

/-- The product of the nodes' own features with the transposed weights, read at an element. -/
theorem v29_at (x0 : (⟨S100000x128, .f32⟩ : BufTy).Contents (Elt Ideal)) (x4 : (⟨S128x128, .f32⟩ : BufTy).Contents (Elt Ideal)) (p : Fin 100000) (q : Fin 128) :
    val_main_v29 (F := Ideal) x0 x4 (ix2 p q) = ∑ k : Fin 128, x0 (ix2 p k) * x4 (ix2 q k) := by
  rw [val_main_v29_apply]
  refine Finset.sum_congr rfl fun k _ => ?_
  rw [val_main_v28_apply]
  have e1 : lidx_main_v29 (ix2 p q) k = ix2 p k := funext fun a => by match a with | ⟨0, _⟩ => rfl | ⟨1, _⟩ => rfl
  have e2 : idx_main_v28 (ridx_main_v29 (ix2 p q) k) = ix2 q k := funext fun a => by match a with | ⟨0, _⟩ => rfl | ⟨1, _⟩ => rfl
  rw [e1, e2]

/-- The product of the averaged neighbour features with the transposed weights, read at an element: the average is the
    summed features divided by the row's raised count, both kept as stages. -/
theorem v24_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (p : Fin 100000) (q : Fin 128) :
    val_main_v24 (F := Ideal) x0 x1 x2 (ix2 p q)
      = ∑ k : Fin 128, Ideal.div (val_main_v13 (F := Ideal) x0 x1 (ix2 p k)) (val_main_v19 (F := Ideal) x1 (ix1 p)) * x2 (ix2 q k) := by
  rw [val_main_v24_apply]
  refine Finset.sum_congr rfl fun k _ => ?_
  rw [val_main_v22_apply, val_main_v21_apply, val_main_v20_apply, val_main_v23_apply]
  have e1 : lidx_main_v24 (ix2 p q) k = ix2 p k := funext fun a => by match a with | ⟨0, _⟩ => rfl | ⟨1, _⟩ => rfl
  have e2 : idx_main_v23 (ridx_main_v24 (ix2 p q) k) = ix2 q k := funext fun a => by match a with | ⟨0, _⟩ => rfl | ⟨1, _⟩ => rfl
  have e3 : idx_main_v20 (idx_main_v21 (ix2 p k)) = ix1 p := funext fun a => by match a with | ⟨0, _⟩ => rfl
  rw [e1, e2, e3]
  rfl

theorem layer1 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v31 (F := Ideal) x0 x1 x2 x3 x4
      = Cert.Sage.layerR 128 true (val_main_v13 (F := Ideal) x0 x1) (val_main_v19 (F := Ideal) x1) x0 x2 x3 x4 := by
  funext y
  obtain ⟨p, q, rfl⟩ : ∃ (p : Fin 100000) (q : Fin 128), y = ix2 p q := ⟨y 0, y 1, eq_ix2 y⟩
  unfold Cert.Sage.layerR Cert.Sage.elemR Cert.Sage.act
  rw [if_pos rfl, val_main_v31_apply, val_main_v30_apply, val_main_v27_apply, v24_at, v26_at, v29_at, call0_at]
  rfl

/-! ### Layer 2 -/

theorem v54_at (x6 : (⟨S128, .f32⟩ : BufTy).Contents (Elt Ideal)) (p : Fin 100000) (q : Fin 128) :
    val_main_v54 (F := Ideal) x6 (ix2 p q) = x6 (ix1 q) := by
  rw [val_main_v54_apply, val_main_v53_apply]
  have e : idx_main_v53 (idx_main_v54 (ix2 p q)) = ix1 q := funext fun a => by match a with | ⟨0, _⟩ => rfl
  rw [e]

theorem call1_at (p : Fin 100000) (q : Fin 128) :
    val_main_call1_v0 (F := Ideal) (ix2 p q) = Ideal.ofBits .f32 0x00000000#32 := by
  rw [val_main_call1_v0_apply, val_main_call1_cst_apply]
  rfl

/-- The product of the first layer's result with the transposed weights, read at an element. -/
theorem v57_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x7 : (⟨S128x128, .f32⟩ : BufTy).Contents (Elt Ideal)) (p : Fin 100000) (q : Fin 128) :
    val_main_v57 (F := Ideal) x0 x1 x2 x3 x4 x7 (ix2 p q)
      = ∑ k : Fin 128, val_main_v31 (F := Ideal) x0 x1 x2 x3 x4 (ix2 p k) * x7 (ix2 q k) := by
  rw [val_main_v57_apply]
  refine Finset.sum_congr rfl fun k _ => ?_
  rw [val_main_v56_apply]
  have e1 : lidx_main_v57 (ix2 p q) k = ix2 p k := funext fun a => by match a with | ⟨0, _⟩ => rfl | ⟨1, _⟩ => rfl
  have e2 : idx_main_v56 (ridx_main_v57 (ix2 p q) k) = ix2 q k := funext fun a => by match a with | ⟨0, _⟩ => rfl | ⟨1, _⟩ => rfl
  rw [e1, e2]

theorem v52_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (p : Fin 100000) (q : Fin 128) :
    val_main_v52 (F := Ideal) x0 x1 x2 x3 x4 x5 (ix2 p q)
      = ∑ k : Fin 128, Ideal.div (val_main_v41 (F := Ideal) x0 x1 x2 x3 x4 (ix2 p k)) (val_main_v47 (F := Ideal) x1 (ix1 p)) * x5 (ix2 q k) := by
  rw [val_main_v52_apply]
  refine Finset.sum_congr rfl fun k _ => ?_
  rw [val_main_v50_apply, val_main_v49_apply, val_main_v48_apply, val_main_v51_apply]
  have e1 : lidx_main_v52 (ix2 p q) k = ix2 p k := funext fun a => by match a with | ⟨0, _⟩ => rfl | ⟨1, _⟩ => rfl
  have e2 : idx_main_v51 (ridx_main_v52 (ix2 p q) k) = ix2 q k := funext fun a => by match a with | ⟨0, _⟩ => rfl | ⟨1, _⟩ => rfl
  have e3 : idx_main_v48 (idx_main_v49 (ix2 p k)) = ix1 p := funext fun a => by match a with | ⟨0, _⟩ => rfl
  rw [e1, e2, e3]
  rfl

theorem layer2 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v59 (F := Ideal) x0 x1 x2 x3 x4 x5 x6 x7
      = Cert.Sage.layerR 128 true (val_main_v41 (F := Ideal) x0 x1 x2 x3 x4) (val_main_v47 (F := Ideal) x1)
          (val_main_v31 (F := Ideal) x0 x1 x2 x3 x4) x5 x6 x7 := by
  funext y
  obtain ⟨p, q, rfl⟩ : ∃ (p : Fin 100000) (q : Fin 128), y = ix2 p q := ⟨y 0, y 1, eq_ix2 y⟩
  unfold Cert.Sage.layerR Cert.Sage.elemR Cert.Sage.act
  rw [if_pos rfl, val_main_v59_apply, val_main_v58_apply, val_main_v55_apply, v52_at, v54_at, v57_at, call1_at]
  rfl

/-! ### Layer 3 (64 output columns, no rectifier) -/

theorem v82_at (x9 : (⟨S64, .f32⟩ : BufTy).Contents (Elt Ideal)) (p : Fin 100000) (q : Fin 64) :
    val_main_v82 (F := Ideal) x9 (ix2 p q) = x9 (ix1 q) := by
  rw [val_main_v82_apply, val_main_v81_apply]
  have e : idx_main_v81 (idx_main_v82 (ix2 p q)) = ix1 q := funext fun a => by match a with | ⟨0, _⟩ => rfl
  rw [e]

/-- The product of the second layer's result with the transposed weights, read at an element. -/
theorem v85_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x10 : (⟨S64x128, .f32⟩ : BufTy).Contents (Elt Ideal)) (p : Fin 100000) (q : Fin 64) :
    val_main_v85 (F := Ideal) x0 x1 x2 x3 x4 x5 x6 x7 x10 (ix2 p q)
      = ∑ k : Fin 128, val_main_v59 (F := Ideal) x0 x1 x2 x3 x4 x5 x6 x7 (ix2 p k) * x10 (ix2 q k) := by
  rw [val_main_v85_apply]
  refine Finset.sum_congr rfl fun k _ => ?_
  rw [val_main_v84_apply]
  have e1 : lidx_main_v85 (ix2 p q) k = ix2 p k := funext fun a => by match a with | ⟨0, _⟩ => rfl | ⟨1, _⟩ => rfl
  have e2 : idx_main_v84 (ridx_main_v85 (ix2 p q) k) = ix2 q k := funext fun a => by match a with | ⟨0, _⟩ => rfl | ⟨1, _⟩ => rfl
  rw [e1, e2]

theorem v80_at (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (p : Fin 100000) (q : Fin 64) :
    val_main_v80 (F := Ideal) x0 x1 x2 x3 x4 x5 x6 x7 x8 (ix2 p q)
      = ∑ k : Fin 128, Ideal.div (val_main_v69 (F := Ideal) x0 x1 x2 x3 x4 x5 x6 x7 (ix2 p k)) (val_main_v75 (F := Ideal) x1 (ix1 p)) * x8 (ix2 q k) := by
  rw [val_main_v80_apply]
  refine Finset.sum_congr rfl fun k _ => ?_
  rw [val_main_v78_apply, val_main_v77_apply, val_main_v76_apply, val_main_v79_apply]
  have e1 : lidx_main_v80 (ix2 p q) k = ix2 p k := funext fun a => by match a with | ⟨0, _⟩ => rfl | ⟨1, _⟩ => rfl
  have e2 : idx_main_v79 (ridx_main_v80 (ix2 p q) k) = ix2 q k := funext fun a => by match a with | ⟨0, _⟩ => rfl | ⟨1, _⟩ => rfl
  have e3 : idx_main_v76 (idx_main_v77 (ix2 p k)) = ix1 p := funext fun a => by match a with | ⟨0, _⟩ => rfl
  rw [e1, e2, e3]
  rfl

theorem layer3 (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal)) :
    val_main_v86 (F := Ideal) x0 x1 x2 x3 x4 x5 x6 x7 x8 x9 x10
      = Cert.Sage.layerR 64 false (val_main_v69 (F := Ideal) x0 x1 x2 x3 x4 x5 x6 x7) (val_main_v75 (F := Ideal) x1)
          (val_main_v59 (F := Ideal) x0 x1 x2 x3 x4 x5 x6 x7) x8 x9 x10 := by
  funext y
  obtain ⟨p, q, rfl⟩ : ∃ (p : Fin 100000) (q : Fin 64), y = ix2 p q := ⟨y 0, y 1, eq_ix2 y⟩
  unfold Cert.Sage.layerR Cert.Sage.elemR Cert.Sage.act
  rw [if_neg Bool.false_ne_true, val_main_v86_apply, val_main_v83_apply, v80_at, v82_at, v85_at]
  rfl

/-- A raised neighbour count is at least one, so it is not zero. -/
theorem cnt1_ne (x1 : (⟨S2x1600000, .i32⟩ : BufTy).Contents (Elt Ideal)) (i : Fin 100000) : val_main_v19 (F := Ideal) x1 (ix1 i) ≠ 0 := by
  rw [val_main_v19_apply, val_main_v18_apply, val_main_cst_3_apply]
  show max (val_main_v17 (F := Ideal) x1 (ix1 i) : EReal) (Ideal.ofBits .f32 0x3F800000#32) ≠ 0
  rw [Ideal.ofBits_one_f32]
  exact ne_of_gt (lt_of_lt_of_le zero_lt_one (le_max_right _ _))
theorem cnt2_ne (x1 : (⟨S2x1600000, .i32⟩ : BufTy).Contents (Elt Ideal)) (i : Fin 100000) : val_main_v47 (F := Ideal) x1 (ix1 i) ≠ 0 := by
  rw [val_main_v47_apply, val_main_v46_apply, val_main_cst_9_apply]
  show max (val_main_v45 (F := Ideal) x1 (ix1 i) : EReal) (Ideal.ofBits .f32 0x3F800000#32) ≠ 0
  rw [Ideal.ofBits_one_f32]
  exact ne_of_gt (lt_of_lt_of_le zero_lt_one (le_max_right _ _))
theorem cnt3_ne (x1 : (⟨S2x1600000, .i32⟩ : BufTy).Contents (Elt Ideal)) (i : Fin 100000) : val_main_v75 (F := Ideal) x1 (ix1 i) ≠ 0 := by
  rw [val_main_v75_apply, val_main_v74_apply, val_main_cst_15_apply]
  show max (val_main_v73 (F := Ideal) x1 (ix1 i) : EReal) (Ideal.ofBits .f32 0x3F800000#32) ≠ 0
  rw [Ideal.ofBits_one_f32]
  exact ne_of_gt (lt_of_lt_of_le zero_lt_one (le_max_right _ _))

end Cert.ReferenceIdeal.Stages

end
-- ==== Proof.Bridge.lean ====
import proofs.«430433_j43550968381728_1_alg».proof.Proof.KLayers
import proofs.«430433_j43550968381728_1_alg».proof.Proof.KTermsAt
import proofs.«430433_j43550968381728_1_alg».proof.Proof.Mask
import proofs.«430433_j43550968381728_1_alg».proof.Proof.RefStages

set_option maxRecDepth 16384

noncomputable section

namespace Cert.Proof.Bridge

open Idealize.ShloMosaic Idealize.ShloMosaic.TcCoe Idealize.SL.Sem Idealize.ShloMosaic.ValueIdx Cert.ReferenceIdeal Cert.ReferenceIdeal.Gen Cert.ReferenceIdeal.Read

/-! The kernel program's layers against the reference's stages, one layer at a time. Two things are shared by the three
    layers. The raised neighbour count is the same term in both programs (the reference recomputes it per layer, the
    kernel program once). And where every edge's source is a node number the kernel program's "row where in range, fill
    elsewhere" is the plain row gather, so its summed neighbour features are the reference's scatter of gathered rows. -/

/-- The kernel program's raised neighbour count is the reference's, in each of its three layers. -/
theorem cnt_eq1 (e : (⟨S2x1600000, .i32⟩ : BufTy).Contents (Elt Ideal)) : Cert.KernelIdeal.Terms.cnt (F := Ideal) e = val_main_v19 (F := Ideal) e := rfl
theorem cnt_eq2 (e : (⟨S2x1600000, .i32⟩ : BufTy).Contents (Elt Ideal)) : Cert.KernelIdeal.Terms.cnt (F := Ideal) e = val_main_v47 (F := Ideal) e := rfl
theorem cnt_eq3 (e : (⟨S2x1600000, .i32⟩ : BufTy).Contents (Elt Ideal)) : Cert.KernelIdeal.Terms.cnt (F := Ideal) e = val_main_v75 (F := Ideal) e := rfl

section
variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S64x128, .f32⟩ : BufTy).Contents (Elt Ideal)) (x9 : (⟨S64, .f32⟩ : BufTy).Contents (Elt Ideal)) (x10 : (⟨S64x128, .f32⟩ : BufTy).Contents (Elt Ideal))
variable (h : ∀ i : Cert.KernelIdeal.S1600000.Idx, 0 ≤ (Cert.KernelIdeal.Terms.src x1 i).toInt ∧ (Cert.KernelIdeal.Terms.src x1 i).toInt < 100000)
include h

/-- Layer 1's summed neighbour features: the kernel program's are the reference's scatter stage. -/
theorem agg_eq1 : Cert.KernelIdeal.Terms.agg (F := Ideal) x0 x1 = val_main_v13 (F := Ideal) x0 x1 := by
  unfold Cert.KernelIdeal.Terms.agg
  rw [Cert.KernelIdeal.Mask.take_eq_rows x0 x1 h]
  rfl

/-- Layer 2's, of the reference's layer-1 result. -/
theorem agg_eq2 : Cert.KernelIdeal.Terms.agg (F := Ideal) (val_main_v31 (F := Ideal) x0 x1 x2 x3 x4) x1 = val_main_v41 (F := Ideal) x0 x1 x2 x3 x4 := by
  unfold Cert.KernelIdeal.Terms.agg
  rw [Cert.KernelIdeal.Mask.take_eq_rows _ x1 h]
  rfl

/-- Layer 3's, of the reference's layer-2 result. -/
theorem agg_eq3 : Cert.KernelIdeal.Terms.agg (F := Ideal) (val_main_v59 (F := Ideal) x0 x1 x2 x3 x4 x5 x6 x7) x1
    = val_main_v69 (F := Ideal) x0 x1 x2 x3 x4 x5 x6 x7 := by
  unfold Cert.KernelIdeal.Terms.agg
  rw [Cert.KernelIdeal.Mask.take_eq_rows _ x1 h]
  rfl

/-- Layer 1: the kernel program's is the reference's rectified stage. -/
theorem h1_eq : Cert.KernelIdeal.Layers.h1 x0 x1 x2 x3 x4 = val_main_v31 (F := Ideal) x0 x1 x2 x3 x4 := by
  unfold Cert.KernelIdeal.Layers.h1
  rw [Cert.ReferenceIdeal.Stages.layer1, ← agg_eq1 x0 x1 h]
  exact Cert.Sage.layerK_eq_layerR 128 true _ _ _ _ _ _ _ _
    (fun i => (Cert.KernelIdeal.TermsAt.inv_apply x1 i).trans (by rw [cnt_eq1]))
    (fun i => Cert.ReferenceIdeal.Stages.cnt1_ne x1 i)
    (fun j => Cert.KernelIdeal.TermsAt.biasRow128_apply x3 j)

/-- Layer 2. -/
theorem h2_eq : Cert.KernelIdeal.Layers.h2 x0 x1 x2 x3 x4 x5 x6 x7 = val_main_v59 (F := Ideal) x0 x1 x2 x3 x4 x5 x6 x7 := by
  unfold Cert.KernelIdeal.Layers.h2
  rw [h1_eq x0 x1 x2 x3 x4 h, Cert.ReferenceIdeal.Stages.layer2, ← agg_eq2 x0 x1 x2 x3 x4 h]
  exact Cert.Sage.layerK_eq_layerR 128 true _ _ _ _ _ _ _ _
    (fun i => (Cert.KernelIdeal.TermsAt.inv_apply x1 i).trans (by rw [cnt_eq2]))
    (fun i => Cert.ReferenceIdeal.Stages.cnt2_ne x1 i)
    (fun j => Cert.KernelIdeal.TermsAt.biasRow128_apply x6 j)

/-- Where every edge's source is a node number, the kernel program's three layers and the reference's compute the same
    array: layer by layer the summed neighbour features agree (the fill value is never taken), the kernel's product with
    the reciprocal count is the reference's quotient, and the three summands are added in another order. -/
theorem out_eq : Cert.KernelIdeal.Layers.out x0 x1 x2 x3 x4 x5 x6 x7 x8 x9 x10 = val_main_v86 (F := Ideal) x0 x1 x2 x3 x4 x5 x6 x7 x8 x9 x10 := by
  unfold Cert.KernelIdeal.Layers.out
  rw [h2_eq x0 x1 x2 x3 x4 x5 x6 x7 h, Cert.ReferenceIdeal.Stages.layer3, ← agg_eq3 x0 x1 x2 x3 x4 x5 x6 x7 h]
  exact Cert.Sage.layerK_eq_layerR 64 false _ _ _ _ _ _ _ _
    (fun i => (Cert.KernelIdeal.TermsAt.inv_apply x1 i).trans (by rw [cnt_eq3]))
    (fun i => Cert.ReferenceIdeal.Stages.cnt3_ne x1 i)
    (fun j => Cert.KernelIdeal.TermsAt.biasRow64_apply x9 j)

end

end Cert.Proof.Bridge

end
-- ==== Proof.lean ====
/-
  Three-layer GraphSAGE: the Pallas program (per layer: neighbour rows taken by `jnp.take`, summed per target node, then
  ONE fused launch doing "scale by the reciprocal neighbour count, two matrix products, bias, rectifier") against the jnp
  reference (per layer: rows by plain indexing, summed per target node, divided by the neighbour count, two matrix
  products, bias, rectifier).

  The statement carries one added conjunct: every edge's SOURCE is a node number, 0 ≤ source < 100000. Outside it the
  reference's own row lookup indexes out of range, and the two programs then differ: `jnp.take` fills an out-of-range
  row with the not-a-number word where plain indexing clamps the index.

  Under it, at the ideal instance, both programs compute per layer, for node i and output column j,
      act( Σₖ (aggᵢₖ / cᵢ) · Wlⱼₖ  +  blⱼ  +  Σₖ xᵢₖ · Wrⱼₖ ),
  agg the neighbour rows summed per target node and c the neighbour count raised to at least one. The kernel multiplies
  by 1/cᵢ computed beforehand, which is the quotient because cᵢ ≥ 1 is not zero, and adds the three summands in another
  order; both hold on all extended reals, so the finiteness of the float inputs is not used.

  The frames of the two kernel programs are the generated ones; the reference's frame is its generated run with the result
  dropped; the idealization rewrote nothing, so `preserves` is trivial.
-/
import proofs.«430433_j43550968381728_1_alg».proof.Defs
import proofs.«430433_j43550968381728_1_alg».proof.Proof.Gen.Kernel
import proofs.«430433_j43550968381728_1_alg».proof.Proof.Gen.Kernel.Frame
import proofs.«430433_j43550968381728_1_alg».proof.Proof.Gen.KernelIdeal
import proofs.«430433_j43550968381728_1_alg».proof.Proof.Gen.KernelIdeal.Frame
import proofs.«430433_j43550968381728_1_alg».proof.Proof.Gen.ReferenceIdeal
import proofs.«430433_j43550968381728_1_alg».proof.Proof.Gen.ReferenceIdeal.Run
import proofs.«430433_j43550968381728_1_alg».proof.Proof.Gen.ReferenceIdeal.Read
import proofs.«430433_j43550968381728_1_alg».proof.Proof.Gen.Pre_finite_inputs
import proofs.«430433_j43550968381728_1_alg».proof.Proof.KernelRun
import proofs.«430433_j43550968381728_1_alg».proof.Proof.KValue
import proofs.«430433_j43550968381728_1_alg».proof.Proof.Mask
import proofs.«430433_j43550968381728_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at layer 3 of the (agreeing) argument arrays: the kernel program by its run
    with the result named and the three launches' values, the reference by its generated run and the bridge. -/
theorem algebraic : Cert.algebraic_KernelIdeal_ReferenceIdeal := by
  intro m ρ m' ρ' hpre hagree
  refine ⟨fun c => Cert.KernelIdeal.Layers.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value3.kernel_value m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v86_eq, e0, e1, e2, e3, e4, e5, e6, e7, e8, e9, e10]
    exact (Cert.Proof.Bridge.out_eq _ _ _ _ _ _ _ _ _ _ _ (Cert.KernelIdeal.Mask.src_range_of_pre m hpre c)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
